-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S64x64 .f32) (main_arg3 : FVec F S64 .f32) (main_arg4 : FVec F S64x32 .f32) (main_arg5 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S2000x64 : Shape := ⟨2, ![2000, 64]⟩
abbrev S1x64 : Shape := ⟨2, ![1, 64]⟩
abbrev S_ : Shape := ⟨0, ![]⟩
abbrev S1600000x1 : Shape := ⟨2, ![1600000, 1]⟩
abbrev S1600000x64 : Shape := ⟨2, ![1600000, 64]⟩
abbrev S2000 : Shape := ⟨1, ![2000]⟩
abbrev S2000x1 : Shape := ⟨2, ![2000, 1]⟩
abbrev S100000 : Shape := ⟨1, ![100000]⟩
abbrev S100000x1 : Shape := ⟨2, ![100000, 1]⟩
abbrev S100000x32 : Shape := ⟨2, ![100000, 32]⟩
abbrev S2000x32 : Shape := ⟨2, ![2000, 32]⟩
abbrev S1x32 : Shape := ⟨2, ![1, 32]⟩
abbrev S1600000x32 : Shape := ⟨2, ![1600000, 32]⟩

abbrev nBuf : Space → Nat
  | .hbm => 109
  | .vmem => 28
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x64, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x64, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x64, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x64, .f32⟩
  | .hbm, ⟨38, _⟩ => ⟨S1600000x64, .f32⟩
  | .hbm, ⟨39, _⟩ => ⟨S_, .f32⟩
  | .hbm, ⟨40, _⟩ => ⟨S100000x64, .f32⟩
  | .hbm, ⟨41, _⟩ => ⟨S1600000x1, .i32⟩
  | .hbm, ⟨42, _⟩ => ⟨S100000x64, .f32⟩
  | .hbm, ⟨43, _⟩ => ⟨S_, .f32⟩
  | .hbm, ⟨44, _⟩ => ⟨S1600000, .f32⟩
  | .hbm, ⟨45, _⟩ => ⟨S_, .f32⟩
  | .hbm, ⟨46, _⟩ => ⟨S100000, .f32⟩
  | .hbm, ⟨47, _⟩ => ⟨S1600000x1, .i32⟩
  | .hbm, ⟨48, _⟩ => ⟨S100000, .f32⟩
  | .hbm, ⟨49, _⟩ => ⟨S_, .f32⟩
  | .hbm, ⟨50, _⟩ => ⟨S_, .f32⟩
  | .hbm, ⟨51, _⟩ => ⟨S100000, .f32⟩
  | .hbm, ⟨52, _⟩ => ⟨S100000, .f32⟩
  | .hbm, ⟨53, _⟩ => ⟨S100000x1, .f32⟩
  | .hbm, ⟨54, _⟩ => ⟨S100000x64, .f32⟩
  | .hbm, ⟨55, _⟩ => ⟨S100000x64, .f32⟩
  | .hbm, ⟨56, _⟩ => ⟨S_, .f32⟩
  | .hbm, ⟨57, _⟩ => ⟨S100000x64, .f32⟩
  | .hbm, ⟨58, _⟩ => ⟨S100000x64, .f32⟩
  | .hbm, ⟨59, _⟩ => ⟨S1x1600000, .i32⟩
  | .hbm, ⟨60, _⟩ => ⟨S1600000, .i32⟩
  | .hbm, ⟨61, _⟩ => ⟨S1x1600000, .i32⟩
  | .hbm, ⟨62, _⟩ => ⟨S1600000, .i32⟩
  | .hbm, ⟨63, _⟩ => ⟨S100000x32, .f32⟩
  | .hbm, ⟨64, _⟩ => ⟨S_, .i32⟩
  | .hbm, ⟨65, _⟩ => ⟨S1600000, .i32⟩
  | .hbm, ⟨66, _⟩ => ⟨S1600000, .i1⟩
  | .hbm, ⟨67, _⟩ => ⟨S_, .i32⟩
  | .hbm, ⟨68, _⟩ => ⟨S1600000, .i32⟩
  | .hbm, ⟨69, _⟩ => ⟨S1600000, .i32⟩
  | .hbm, ⟨70, _⟩ => ⟨S1600000, .i32⟩
  | .hbm, ⟨71, _⟩ => ⟨S1600000x1, .i32⟩
  | .hbm, ⟨72, _⟩ => ⟨S1600000x64, .f32⟩
  | .hbm, ⟨73, _⟩ => ⟨S_, .i32⟩
  | .hbm, ⟨74, _⟩ => ⟨S1600000, .i32⟩
  | .hbm, ⟨75, _⟩ => ⟨S1600000, .i1⟩
  | .hbm, ⟨76, _⟩ => ⟨S_, .i32⟩
  | .hbm, ⟨77, _⟩ => ⟨S1600000, .i32⟩
  | .hbm, ⟨78, _⟩ => ⟨S1600000, .i32⟩
  | .hbm, ⟨79, _⟩ => ⟨S1600000, .i32⟩
  | .hbm, ⟨80, _⟩ => ⟨S1600000x1, .i32⟩
  | .hbm, ⟨81, _⟩ => ⟨S1600000x64, .f32⟩
  | .hbm, ⟨82, _⟩ => ⟨S_, .i32⟩
  | .hbm, ⟨83, _⟩ => ⟨S1600000, .i32⟩
  | .hbm, ⟨84, _⟩ => ⟨S1600000, .i1⟩
  | .hbm, ⟨85, _⟩ => ⟨S_, .i32⟩
  | .hbm, ⟨86, _⟩ => ⟨S1600000, .i32⟩
  | .hbm, ⟨87, _⟩ => ⟨S1600000, .i32⟩
  | .hbm, ⟨88, _⟩ => ⟨S1600000, .i32⟩
  | .hbm, ⟨89, _⟩ => ⟨S1600000x1, .i32⟩
  | .hbm, ⟨90, _⟩ => ⟨S1600000x32, .f32⟩
  | .hbm, ⟨91, _⟩ => ⟨S1600000x32, .f32⟩
  | .hbm, ⟨92, _⟩ => ⟨S_, .f32⟩
  | .hbm, ⟨93, _⟩ => ⟨S100000x32, .f32⟩
  | .hbm, ⟨94, _⟩ => ⟨S1600000x1, .i32⟩
  | .hbm, ⟨95, _⟩ => ⟨S100000x32, .f32⟩
  | .hbm, ⟨96, _⟩ => ⟨S_, .f32⟩
  | .hbm, ⟨97, _⟩ => ⟨S1600000, .f32⟩
  | .hbm, ⟨98, _⟩ => ⟨S_, .f32⟩
  | .hbm, ⟨99, _⟩ => ⟨S100000, .f32⟩
  | .hbm, ⟨100, _⟩ => ⟨S1600000x1, .i32⟩
  | .hbm, ⟨101, _⟩ => ⟨S100000, .f32⟩
  | .hbm, ⟨102, _⟩ => ⟨S_, .f32⟩
  | .hbm, ⟨103, _⟩ => ⟨S_, .f32⟩
  | .hbm, ⟨104, _⟩ => ⟨S100000, .f32⟩
  | .hbm, ⟨105, _⟩ => ⟨S100000, .f32⟩
  | .hbm, ⟨106, _⟩ => ⟨S100000x1, .f32⟩
  | .hbm, ⟨107, _⟩ => ⟨S100000x32, .f32⟩
  | .hbm, ⟨108, _⟩ => ⟨S100000x32, .f32⟩
  | .local _ .vmem, ⟨0, _⟩ => ⟨S2000x64, .f32⟩
  | .local _ .vmem, ⟨1, _⟩ => ⟨S2000x64, .f32⟩
  | .local _ .vmem, ⟨2, _⟩ => ⟨S64x64, .f32⟩
  | .local _ .vmem, ⟨3, _⟩ => ⟨S64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S64x32, .f32⟩
  | .local _ .vmem, ⟨17, _⟩ => ⟨S32, .f32⟩
  | .local _ .vmem, ⟨18, _⟩ => ⟨S2000x32, .f32⟩
  | .local _ .vmem, ⟨19, _⟩ => ⟨S2000x32, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x64, .f32⟩
  | .local _ .vmem, ⟨24, _⟩ => ⟨S2000x32, .f32⟩
  | .local _ .vmem, ⟨25, _⟩ => ⟨S2000x32, .f32⟩
  | .local _ .vmem, ⟨26, _⟩ => ⟨S2000x32, .f32⟩
  | .local _ .vmem, ⟨27, _⟩ => ⟨S2000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_c_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_call0_v0 : Ref sig .tc := ⟨.hbm, 50, rfl⟩
abbrev main_call0_v1 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_call1_cst : Ref sig .tc := ⟨.hbm, 56, rfl⟩
abbrev main_call1_v0 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_8 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_c_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_15 : Ref sig .tc := ⟨.hbm, 96, rfl⟩
abbrev main_v69 : Ref sig .tc := ⟨.hbm, 97, rfl⟩
abbrev main_cst_16 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_17 : Ref sig .tc := ⟨.hbm, 102, rfl⟩
abbrev main_call2_v0 : Ref sig .tc := ⟨.hbm, 103, rfl⟩
abbrev main_call2_v1 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![800], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![800], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S2000x64_S2000x64 : S2000x64.ShapeCasts S2000x64
  reduces_S2000x64_S2000 : S2000x64.Reduces [1] S2000
  shapeCasts_S2000_S2000x1 : S2000.ShapeCasts S2000x1
  broadcasts_S2000x1_S2000x64 : S2000x1.Broadcasts S2000x64
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S2000x32 : S1x32.Broadcasts S2000x32
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  broadcasts_S2000x1_S2000x32 : S2000x1.Broadcasts S2000x32
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  dot_S2000x64_S64x64_S2000x64_1_0_0_1_n_n_wf : DotDims.WF S2000x64 S64x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S2000x64_S64x32_S2000x32_1_0_0_1_n_n_wf : DotDims.WF S2000x64 S64x32 S2000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S100000x64.size a
  hwx0_3 : ∀ i : grid0.Coords, EltTy.bits .f32 = 32 ∨ (Rect.block (s := S100000x64) S2000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S1600000x64.size a
  hwx1_0 : ∀ i : grid1.Coords, EltTy.bits .f32 = 32 ∨ (Rect.block (s := S1600000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S1600000x64.size a
  hwx1_1 : ∀ i : grid1.Coords, EltTy.bits .f32 = 32 ∨ (Rect.block (s := S1600000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S1600000x64.size a
  hwx1_2 : ∀ i : grid1.Coords, EltTy.bits .f32 = 32 ∨ (Rect.block (s := S1600000x64) S2000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S1600000x64.size a
  hwx1_3 : ∀ i : grid1.Coords, EltTy.bits .f32 = 32 ∨ (Rect.block (s := S1600000x64) S2000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32.size a ≤ S32.size a
  hwx2_2 : ∀ i : grid2.Coords, EltTy.bits .f32 = 32 ∨ (Rect.block (s := S32) S32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x32.size a ≤ S100000x32.size a
  hwx2_3 : ∀ i : grid2.Coords, EltTy.bits .f32 = 32 ∨ (Rect.block (s := S100000x32) S2000x32.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S1600000x64.size a
  hwx3_0 : ∀ i : grid3.Coords, EltTy.bits .f32 = 32 ∨ (Rect.block (s := S1600000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S1600000x64.size a
  hwx3_1 : ∀ i : grid3.Coords, EltTy.bits .f32 = 32 ∨ (Rect.block (s := S1600000x64) S2000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x32.size a ≤ S1600000x32.size a
  hwx3_2 : ∀ i : grid3.Coords, EltTy.bits .f32 = 32 ∨ (Rect.block (s := S1600000x32) S2000x32.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x32.size a ≤ S1600000x32.size a
  hwx3_3 : ∀ i : grid3.Coords, EltTy.bits .f32 = 32 ∨ (Rect.block (s := S1600000x32) S2000x32.size (cc3_transform_3 i) (hinb3_3 i)).WholeWords (EltTy.packing .f32)

variable [Facts₀]

def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v11) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S2000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v38) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v43) S2000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v50) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v64) S2000x32.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v65) S2000x32.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S1x64 : Shape := ⟨2, ![1, 64]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S100000x32 : Shape := ⟨2, ![100000, 32]⟩
abbrev S1x32 : Shape := ⟨2, ![1, 32]⟩
abbrev S1600000x32 : Shape := ⟨2, ![1600000, 32]⟩

abbrev nBuf : Space → Nat
  | .hbm => 165
  | .vmem => 0
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64, .f32⟩
  | 4 => ⟨S64x32, .f32⟩
  | 5 => ⟨S32, .f32⟩
  | 6 => ⟨S1x1600000, .i32⟩
  | 7 => ⟨S1600000, .i32⟩
  | 8 => ⟨S1x1600000, .i32⟩
  | 9 => ⟨S1600000, .i32⟩
  | 10 => ⟨S100000x64, .f32⟩
  | 11 => ⟨S1x64, .f32⟩
  | 12 => ⟨S100000x64, .f32⟩
  | 13 => ⟨S100000x64, .f32⟩
  | 14 => ⟨S_, .i32⟩
  | 15 => ⟨S1600000, .i32⟩
  | 16 => ⟨S1600000, .i1⟩
  | 17 => ⟨S_, .i32⟩
  | 18 => ⟨S1600000, .i32⟩
  | 19 => ⟨S1600000, .i32⟩
  | 20 => ⟨S1600000, .i32⟩
  | 21 => ⟨S1600000x1, .i32⟩
  | 22 => ⟨S1600000x64, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000x64, .f32⟩
  | 32 => ⟨S1600000x64, .f32⟩
  | 33 => ⟨S1600000x64, .f32⟩
  | 34 => ⟨S_, .f32⟩
  | 35 => ⟨S1600000, .f32⟩
  | 36 => ⟨S1600000, .f32⟩
  | 37 => ⟨S1600000, .f32⟩
  | 38 => ⟨S_, .f32⟩
  | 39 => ⟨S1600000, .f32⟩
  | 40 => ⟨S1600000, .f32⟩
  | 41 => ⟨S1600000, .f32⟩
  | 42 => ⟨S_, .f32⟩
  | 43 => ⟨S1600000, .f32⟩
  | 44 => ⟨S1600000, .f32⟩
  | 45 => ⟨S_, .f32⟩
  | 46 => ⟨S1600000, .f32⟩
  | 47 => ⟨S1600000, .f32⟩
  | 48 => ⟨S1600000, .f32⟩
  | 49 => ⟨S_, .f32⟩
  | 50 => ⟨S1600000, .f32⟩
  | 51 => ⟨S1600000, .f32⟩
  | 52 => ⟨S_, .f32⟩
  | 53 => ⟨S1600000, .f32⟩
  | 54 => ⟨S1600000, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x64, .f32⟩
  | 64 => ⟨S1600000x1, .f32⟩
  | 65 => ⟨S1600000x64, .f32⟩
  | 66 => ⟨S1600000x64, .f32⟩
  | 67 => ⟨S_, .f32⟩
  | 68 => ⟨S100000x64, .f32⟩
  | 69 => ⟨S1600000x1, .i32⟩
  | 70 => ⟨S100000x64, .f32⟩
  | 71 => ⟨S_, .f32⟩
  | 72 => ⟨S1600000, .f32⟩
  | 73 => ⟨S_, .f32⟩
  | 74 => ⟨S100000, .f32⟩
  | 75 => ⟨S1600000x1, .i32⟩
  | 76 => ⟨S100000, .f32⟩
  | 77 => ⟨S_, .f32⟩
  | 78 => ⟨S_, .f32⟩
  | 79 => ⟨S100000, .f32⟩
  | 80 => ⟨S100000, .f32⟩
  | 81 => ⟨S100000x1, .f32⟩
  | 82 => ⟨S100000x64, .f32⟩
  | 83 => ⟨S100000x64, .f32⟩
  | 84 => ⟨S_, .f32⟩
  | 85 => ⟨S100000x64, .f32⟩
  | 86 => ⟨S100000x64, .f32⟩
  | 87 => ⟨S1x1600000, .i32⟩
  | 88 => ⟨S1600000, .i32⟩
  | 89 => ⟨S1x1600000, .i32⟩
  | 90 => ⟨S1600000, .i32⟩
  | 91 => ⟨S100000x32, .f32⟩
  | 92 => ⟨S1x32, .f32⟩
  | 93 => ⟨S100000x32, .f32⟩
  | 94 => ⟨S100000x32, .f32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000x64, .f32⟩
  | 104 => ⟨S_, .i32⟩
  | 105 => ⟨S1600000, .i32⟩
  | 106 => ⟨S1600000, .i1⟩
  | 107 => ⟨S_, .i32⟩
  | 108 => ⟨S1600000, .i32⟩
  | 109 => ⟨S1600000, .i32⟩
  | 110 => ⟨S1600000, .i32⟩
  | 111 => ⟨S1600000x1, .i32⟩
  | 112 => ⟨S1600000x64, .f32⟩
  | 113 => ⟨S1600000x64, .f32⟩
  | 114 => ⟨S1600000x64, .f32⟩
  | 115 => ⟨S_, .f32⟩
  | 116 => ⟨S1600000, .f32⟩
  | 117 => ⟨S1600000, .f32⟩
  | 118 => ⟨S1600000, .f32⟩
  | 119 => ⟨S_, .f32⟩
  | 120 => ⟨S1600000, .f32⟩
  | 121 => ⟨S1600000, .f32⟩
  | 122 => ⟨S1600000, .f32⟩
  | 123 => ⟨S_, .f32⟩
  | 124 => ⟨S1600000, .f32⟩
  | 125 => ⟨S1600000, .f32⟩
  | 126 => ⟨S_, .f32⟩
  | 127 => ⟨S1600000, .f32⟩
  | _ => ⟨S100000x64, .f32⟩

abbrev hbmTy0_1 (i : Nat) : BufTy := match i % 128 with
  | 0 => ⟨S1600000, .f32⟩
  | 1 => ⟨S1600000, .f32⟩
  | 2 => ⟨S_, .f32⟩
  | 3 => ⟨S1600000, .f32⟩
  | 4 => ⟨S1600000, .f32⟩
  | 5 => ⟨S_, .f32⟩
  | 6 => ⟨S1600000, .f32⟩
  | 7 => ⟨S1600000, .f32⟩
  | 8 => ⟨S_, .i32⟩
  | 9 => ⟨S1600000, .i32⟩
  | 10 => ⟨S1600000, .i1⟩
  | 11 => ⟨S_, .i32⟩
  | 12 => ⟨S1600000, .i32⟩
  | 13 => ⟨S1600000, .i32⟩
  | 14 => ⟨S1600000, .i32⟩
  | 15 => ⟨S1600000x1, .i32⟩
  | 16 => ⟨S1600000x32, .f32⟩
  | 17 => ⟨S1600000x1, .f32⟩
  | 18 => ⟨S1600000x32, .f32⟩
  | 19 => ⟨S1600000x32, .f32⟩
  | 20 => ⟨S_, .f32⟩
  | 21 => ⟨S100000x32, .f32⟩
  | 22 => ⟨S1600000x1, .i32⟩
  | 23 => ⟨S100000x32, .f32⟩
  | 24 => ⟨S_, .f32⟩
  | 25 => ⟨S1600000, .f32⟩
  | 26 => ⟨S_, .f32⟩
  | 27 => ⟨S100000, .f32⟩
  | 28 => ⟨S1600000x1, .i32⟩
  | 29 => ⟨S100000, .f32⟩
  | 30 => ⟨S_, .f32⟩
  | 31 => ⟨S_, .f32⟩
  | 32 => ⟨S100000, .f32⟩
  | 33 => ⟨S100000, .f32⟩
  | 34 => ⟨S100000x1, .f32⟩
  | 35 => ⟨S100000x32, .f32⟩
  | 36 => ⟨S100000x32, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_v0 : Ref sig .tc := ⟨.hbm, 33, rfl⟩
abbrev main_call0_cst : Ref sig .tc := ⟨.hbm, 34, rfl⟩
abbrev main_call0_v1 : Ref sig .tc := ⟨.hbm, 35, rfl⟩
abbrev main_v23 : Ref sig .tc := ⟨.hbm, 36, rfl⟩
abbrev main_v24 : Ref sig .tc := ⟨.hbm, 37, rfl⟩
abbrev main_cst : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_c_7 : Ref sig .tc := ⟨.hbm, 55, rfl⟩
abbrev main_v37 : Ref sig .tc := ⟨.hbm, 56, rfl⟩
abbrev main_v38 : Ref sig .tc := ⟨.hbm, 57, rfl⟩
abbrev main_c_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_cst_11 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_12 : Ref sig .tc := ⟨.hbm, 77, rfl⟩
abbrev main_call1_v0 : Ref sig .tc := ⟨.hbm, 78, rfl⟩
abbrev main_call1_v1 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_call2_cst : Ref sig .tc := ⟨.hbm, 84, rfl⟩
abbrev main_call2_v0 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_c_13 : Ref sig .tc := ⟨.hbm, 95, rfl⟩
abbrev main_v67 : Ref sig .tc := ⟨.hbm, 96, rfl⟩
abbrev main_v68 : Ref sig .tc := ⟨.hbm, 97, rfl⟩
abbrev main_c_14 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_c_15 : Ref sig .tc := ⟨.hbm, 104, rfl⟩
abbrev main_v74 : Ref sig .tc := ⟨.hbm, 105, rfl⟩
abbrev main_v75 : Ref sig .tc := ⟨.hbm, 106, rfl⟩
abbrev main_c_16 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_call3_v0 : Ref sig .tc := ⟨.hbm, 114, rfl⟩
abbrev main_call3_cst : Ref sig .tc := ⟨.hbm, 115, rfl⟩
abbrev main_call3_v1 : Ref sig .tc := ⟨.hbm, 116, rfl⟩
abbrev main_v82 : Ref sig .tc := ⟨.hbm, 117, rfl⟩
abbrev main_v83 : Ref sig .tc := ⟨.hbm, 118, rfl⟩
abbrev main_cst_17 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_18 : Ref sig .tc := ⟨.hbm, 123, rfl⟩
abbrev main_v87 : Ref sig .tc := ⟨.hbm, 124, rfl⟩
abbrev main_v88 : Ref sig .tc := ⟨.hbm, 125, rfl⟩
abbrev main_cst_19 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_cst_20 : Ref sig .tc := ⟨.hbm, 130, rfl⟩
abbrev main_v92 : Ref sig .tc := ⟨.hbm, 131, rfl⟩
abbrev main_v93 : Ref sig .tc := ⟨.hbm, 132, rfl⟩
abbrev main_cst_21 : Ref sig .tc := ⟨.hbm, 133, rfl⟩
abbrev main_v94 : Ref sig .tc := ⟨.hbm, 134, rfl⟩
abbrev main_v95 : Ref sig .tc := ⟨.hbm, 135, rfl⟩
abbrev main_c_22 : Ref sig .tc := ⟨.hbm, 136, rfl⟩
abbrev main_v96 : Ref sig .tc := ⟨.hbm, 137, rfl⟩
abbrev main_v97 : Ref sig .tc := ⟨.hbm, 138, rfl⟩
abbrev main_c_23 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_cst_24 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_cst_25 : Ref sig .tc := ⟨.hbm, 152, rfl⟩
abbrev main_v109 : Ref sig .tc := ⟨.hbm, 153, rfl⟩
abbrev main_cst_26 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_cst_27 : Ref sig .tc := ⟨.hbm, 158, rfl⟩
abbrev main_call4_v0 : Ref sig .tc := ⟨.hbm, 159, rfl⟩
abbrev main_call4_v1 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000x64_S1600000_d1 : S1600000x64.ReducesTo [1] S1600000
  h_S_ : 0 < S_.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x32_S100000x32_1_0_0_1_n_n_wf : DotDims.WF S100000x64 S64x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.Spec.lean ====
/-
  The two whole-array functions both programs compute, index by index over the extended reals, and the one
  scalar law that joins them.

  A layer of this network takes node features `x : [N, 64]`, an edge list `(src, dst)`, a weight matrix and a bias.
  * `lin`: the dense transform, `h (r, j) = (∑ k, x (r, k) · W (k, j)) + b j`.
  * `edge`: the message of edge `e` is the gathered transform row scaled by the edge's weight,
    `msg (e, j) = hs (e, j) · wgt (∑ k, (fs (e, k) - fd (e, k))²)`, where
    `wgt s = √(1 - (tanh (√s) · c)² + ε)` with `c` the float nearest 0.9 and `ε` the float nearest 10⁻⁶.
  One program computes `wgt s` directly, the other as `1 / (1 / wgt s)`. Because `tanh` of ANY extended real is a real
  in `[-1, 1]` and `c < 1`, the radicand is a real `≥ 1 - c² > 0`, so `wgt s` is a positive real and the double
  reciprocal gives it back (`div_div_wgt`): no finiteness of the inputs is needed.
-/
import Idealize.ShloMosaic.PureOps.Ideal
import Idealize.ShloMosaic.Lib.ValueIdx

noncomputable section

open scoped BigOperators

namespace Cert.Spec

open Idealize.ShloMosaic Idealize.ShloMosaic.ValueIdx

/-! ## Indices -/

/-- The index in row `i 0` (of an array with `n0` rows) at column `k`. -/
abbrev rowAt {n0 n1 n2 : Nat} (i : (⟨2, ![n0, n1]⟩ : Shape).Idx) (k : Fin n2) : (⟨2, ![n0, n2]⟩ : Shape).Idx :=
  fun a => match a with | ⟨0, _⟩ => (⟨(i 0).val, idx2_lt0 i⟩ : Fin n0) | ⟨1, _⟩ => k
/-- The index at row `k` in column `i 1`. -/
abbrev colAt {n0 n1 n2 : Nat} (k : Fin n2) (i : (⟨2, ![n0, n1]⟩ : Shape).Idx) : (⟨2, ![n2, n1]⟩ : Shape).Idx :=
  fun a => match a with | ⟨0, _⟩ => k | ⟨1, _⟩ => (⟨(i 1).val, idx2_lt1 i⟩ : Fin n1)
/-- The rank-1 index `i 1`. -/
abbrev colOf {n0 n1 : Nat} (i : (⟨2, ![n0, n1]⟩ : Shape).Idx) : (⟨1, ![n1]⟩ : Shape).Idx :=
  fun a => match a with | ⟨0, _⟩ => (⟨(i 1).val, idx2_lt1 i⟩ : Fin n1)

/-! ## The constants -/

/-- The float `1.0` is the real 1. -/
theorem one_eq : Ideal.ofBits .f32 0x3F800000#32 = 1 := by
  simp [Ideal.ofBits, Ideal.ieee, -EReal.coe_mul]; norm_num

/-- The float nearest 0.9, as a real. -/
def c09 : ℝ := 15099494 / 16777216
theorem c09_eq : Ideal.ofBits .f32 0x3F666666#32 = ((c09 : ℝ) : EReal) := by
  unfold c09
  simp [Ideal.ofBits, Ideal.ieee, -EReal.coe_mul]; norm_num

/-- The float nearest 10⁻⁶, as a real. -/
def eps6 : ℝ := 8796093 / 8796093022208
theorem eps6_eq : Ideal.ofBits .f32 0x358637BD#32 = ((eps6 : ℝ) : EReal) := by
  unfold eps6
  simp [Ideal.ofBits, Ideal.ieee, -EReal.coe_mul]; norm_num

/-! ## The edge weight -/

/-- The weight of an edge whose endpoints' features differ by squared distance `s`. -/
def wgt (s : EReal) : EReal :=
  Ideal.sqrt ((Ideal.ofBits .f32 0x3F800000#32
      - (Ideal.tanh (Ideal.sqrt s) * Ideal.ofBits .f32 0x3F666666#32) * (Ideal.tanh (Ideal.sqrt s) * Ideal.ofBits .f32 0x3F666666#32))
    + Ideal.ofBits .f32 0x358637BD#32)

/-- `tanh` of any extended real is a real of square at most 1. -/
theorem tanh_real (z : EReal) : ∃ t : ℝ, Ideal.tanh z = (t : EReal) ∧ t * t ≤ 1 := by
  induction z using EReal.rec with
  | bot => exact ⟨-1, by rw [Ideal.tanh_bot, EReal.coe_neg, EReal.coe_one], by norm_num⟩
  | top => exact ⟨1, by rw [Ideal.tanh_top, EReal.coe_one], by norm_num⟩
  | coe r =>
    refine ⟨Real.tanh r, rfl, ?_⟩
    have h1 := Real.tanh_lt_one r
    have h2 := Real.neg_one_lt_tanh r
    nlinarith

/-- The weight is a positive real. -/
theorem wgt_pos (s : EReal) : ∃ w : ℝ, 0 < w ∧ wgt s = (w : EReal) := by
  obtain ⟨t, ht, hle⟩ := tanh_real (Ideal.sqrt s)
  have hc : c09 * c09 < 1 := by unfold c09; norm_num
  have hc0 : 0 ≤ c09 * c09 := mul_self_nonneg _
  have he : 0 < eps6 := by unfold eps6; norm_num
  have hr : 0 < 1 - (t * c09) * (t * c09) + eps6 := by
    have : (t * c09) * (t * c09) = (t * t) * (c09 * c09) := by ring
    rw [this]
    have ht0 : 0 ≤ t * t := mul_self_nonneg _
    nlinarith
  refine ⟨Real.sqrt (1 - (t * c09) * (t * c09) + eps6), Real.sqrt_pos.mpr hr, ?_⟩
  unfold wgt
  rw [ht, one_eq, c09_eq, eps6_eq]
  rw [show ((1 : EReal)) = ((1 : ℝ) : EReal) from rfl]
  rw [← EReal.coe_mul, ← EReal.coe_mul, ← EReal.coe_sub, ← EReal.coe_add, Ideal.sqrt_coe, if_neg (not_lt.mpr hr.le)]

/-- The double reciprocal of the weight is the weight. -/
theorem div_div_wgt (s : EReal) :
    Ideal.div (Ideal.ofBits .f32 0x3F800000#32) (Ideal.div (Ideal.ofBits .f32 0x3F800000#32) (wgt s)) = wgt s := by
  obtain ⟨w, hw, e⟩ := wgt_pos s
  rw [e, one_eq, Ideal.div_coe hw.ne', one_mul, Ideal.div_coe (one_div_ne_zero hw.ne'), one_mul, one_div_one_div]

/-! ## The two whole-array functions -/

/-- The dense transform `x · W + b` of `N` rows of 64 features into `D`. -/
def lin (N D : Nat) (x : (⟨2, ![N, 64]⟩ : Shape).Idx → EReal) (W : (⟨2, ![64, D]⟩ : Shape).Idx → EReal)
    (b : (⟨1, ![D]⟩ : Shape).Idx → EReal) : (⟨2, ![N, D]⟩ : Shape).Idx → EReal :=
  fun i => (∑ k : Fin 64, x (rowAt i k) * W (colAt k i)) + b (colOf i)

/-- The squared distance of the two gathered feature rows of the edge in row `i 0`. -/
def sqdist (E D : Nat) (fs fd : (⟨2, ![E, 64]⟩ : Shape).Idx → EReal) (i : (⟨2, ![E, D]⟩ : Shape).Idx) : EReal :=
  ∑ k : Fin 64, (fs (rowAt i k) - fd (rowAt i k)) * (fs (rowAt i k) - fd (rowAt i k))

/-- The messages of `E` edges: the gathered transform rows `hs`, each scaled by its edge's weight. -/
def edge (E D : Nat) (fs fd : (⟨2, ![E, 64]⟩ : Shape).Idx → EReal) (hs : (⟨2, ![E, D]⟩ : Shape).Idx → EReal) :
    (⟨2, ![E, D]⟩ : Shape).Idx → EReal :=
  fun i => hs i * wgt (sqdist E D fs fd i)

end Cert.Spec

end
-- ==== Proof.KLin.lean ====
/-
  What the two dense-transform regions leave in their output arrays.
  Each grid point `t` of such a region stages rows `[2000 t, 2000 t + 2000)` of the features, the whole weight matrix and
  the whole bias, and writes back the 2000 × D block `x_blk · W + b`. An element of that block depends only on its own row
  of `x`, so the block is block `t` of the whole-array function `Spec.lin`; the 50 blocks tile the 100000 rows, so
  the array ends holding `Spec.lin` of the region's three input arrays.
-/
import proofs.«108561_j16149077033547_1_alg».proof.Proof.Gen.KernelIdeal.Frame
import proofs.«108561_j16149077033547_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.KLin

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The zero offsets of a whole-buffer load or store -/

theorem off2_zero : (![0, 0] : Fin 2 → Nat) = fun _ => 0 := funext fun a => by fin_cases a <;> rfl
theorem off1_zero : (![0] : Fin 1 → Nat) = fun _ => 0 := funext fun a => by fin_cases a <;> rfl

/-! ## Region 0: one block's arithmetic, element by element

The body multiplies its 2000 × 64 block of features by the 64 × 64 weight matrix (the contraction runs over the features'
columns and the weights' rows), and adds the bias, laid out as one row and repeated down the 2000 rows. -/

/-- The product's left operand is read in the output's row, -/
theorem mm0_lhs_row (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
/-- at the contracted column; -/
theorem mm0_lhs_col (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
/-- the right operand at the contracted row, -/
theorem mm0_rhs_row (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
/-- in the output's column. -/
theorem mm0_rhs_col (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- The block product into a zero accumulator, at row `p` and column `q`: the sum over the 64 contracted positions. -/
theorem mm0_apply (a : FVec Ideal S2000x64 .bf16) (w : FVec Ideal S64x64 .bf16) (p : Fin 2000) (q : Fin 64) :
    matmul (F := Ideal) dot_S2000x64_S64x64_S2000x64_1_0_0_1_n_n none a w (constant (F := Ideal) S2000x64 .f32 0x00000000#32) (ix2 p q)
      = ∑ k : Fin 64, a (ix2 p k) * w (ix2 k q) := by
  refine (Ideal.matmul_constant_zero_apply dot_S2000x64_S64x64_S2000x64_1_0_0_1_n_n none a w (ix2 p q)).trans ?_
  rw [← Equiv.sum_comp (ValueIdx.contrEquiv1 dot_S2000x64_S64x64_S2000x64_1_0_0_1_n_n 64 rfl rfl).symm]
  refine Finset.sum_congr rfl fun k _ => ?_
  have hk := ValueIdx.contrEquiv1_symm_val dot_S2000x64_S64x64_S2000x64_1_0_0_1_n_n 64 rfl rfl k
  have el : dot_S2000x64_S64x64_S2000x64_1_0_0_1_n_n.lhsIdx (ix2 p q) ((ValueIdx.contrEquiv1 dot_S2000x64_S64x64_S2000x64_1_0_0_1_n_n 64 rfl rfl).symm k) = ix2 p k := funext fun ax => Fin.ext (by
    match ax with
    | ⟨0, _⟩ => exact mm0_lhs_row _ _
    | ⟨1, _⟩ => exact (mm0_lhs_col _ _).trans hk)
  have er : dot_S2000x64_S64x64_S2000x64_1_0_0_1_n_n.rhsIdx (ix2 p q) ((ValueIdx.contrEquiv1 dot_S2000x64_S64x64_S2000x64_1_0_0_1_n_n 64 rfl rfl).symm k) = ix2 k q := funext fun ax => Fin.ext (by
    match ax with
    | ⟨0, _⟩ => exact (mm0_rhs_row _ _).trans hk
    | ⟨1, _⟩ => exact mm0_rhs_col _ _)
  rw [el, er]

/-- The bias as one row, repeated down the block: at `(p, q)` it is the bias at `q`. -/
theorem bias0_apply (b : Vec Ideal S64 .f32) (p : Fin 2000) (q : Fin 64) :
    broadcastTo S2000x64 (shapeCast S1x64 b shapeCasts_S64_S1x64) broadcasts_S1x64_S2000x64 (ix2 p q) = b (ix1 q) :=
  (broadcastTo_1b_ab_apply _ broadcasts_S1x64_S2000x64 p q).trans (shapeCast_a_1a_apply b shapeCasts_S64_S1x64 0 q)

/-- One element of the block the body stores: row `p` of the features times column `q` of the weights, plus the bias at `q`.
    (Narrowing an operand to the product's input width changes nothing over the extended reals.) -/
theorem pay0_apply (x0 : Vec Ideal S2000x64 .f32) (x1 : Vec Ideal S64x64 .f32) (x2 : Vec Ideal S64 .f32) (p : Fin 2000) (q : Fin 64) :
    k0_pay1 (F := Ideal) x0 x1 x2 (ix2 p q) = (∑ k : Fin 64, x0 (ix2 p k) * x1 (ix2 k q)) + x2 (ix1 q) := by
  unfold k0_pay1
  refine (addf_apply _ _ (ix2 p q)).trans ?_
  refine congrArg₂ (· + ·) ?_ (bias0_apply x2 p q)
  exact mm0_apply _ _ p q

/-! ## Region 2: one block's arithmetic, element by element

The same body with a 64 × 32 weight matrix and a bias of 32: the block of features (first recast to the shape it already
has) times the weights, plus the bias repeated down the 2000 rows. -/

/-- The product's left operand is read in the output's row, -/
theorem mm2_lhs_row (i : S2000x32.Idx) (q : dot_S2000x64_S64x32_S2000x32_1_0_0_1_n_n.contr.Idx) :
    (dot_S2000x64_S64x32_S2000x32_1_0_0_1_n_n.lhsIdx i q 0).val = (i 0).val := by
  unfold DotDims.lhsIdx
  rw [dif_neg (show ¬(0 : Fin S2000x64.rank) ∈ dot_S2000x64_S64x32_S2000x32_1_0_0_1_n_n.lhsBatch by decide), dif_pos (show (0 : Fin S2000x64.rank) ∈ dot_S2000x64_S64x32_S2000x32_1_0_0_1_n_n.lhsNonContracting by decide)]
  rfl
/-- at the contracted column; -/
theorem mm2_lhs_col (i : S2000x32.Idx) (q : dot_S2000x64_S64x32_S2000x32_1_0_0_1_n_n.contr.Idx) :
    (dot_S2000x64_S64x32_S2000x32_1_0_0_1_n_n.lhsIdx i q 1).val = (q ⟨0, by decide⟩).val :=
  dot_S2000x64_S64x32_S2000x32_1_0_0_1_n_n.lhsIdx_val_of_single rfl i q
/-- the right operand at the contracted row, -/
theorem mm2_rhs_row (i : S2000x32.Idx) (q : dot_S2000x64_S64x32_S2000x32_1_0_0_1_n_n.contr.Idx) :
    (dot_S2000x64_S64x32_S2000x32_1_0_0_1_n_n.rhsIdx i q 0).val = (q ⟨0, by decide⟩).val :=
  dot_S2000x64_S64x32_S2000x32_1_0_0_1_n_n.rhsIdx_val_of_single rfl i q
/-- in the output's column. -/
theorem mm2_rhs_col (i : S2000x32.Idx) (q : dot_S2000x64_S64x32_S2000x32_1_0_0_1_n_n.contr.Idx) :
    (dot_S2000x64_S64x32_S2000x32_1_0_0_1_n_n.rhsIdx i q 1).val = (i 1).val := by
  unfold DotDims.rhsIdx
  rw [dif_neg (show ¬(1 : Fin S64x32.rank) ∈ dot_S2000x64_S64x32_S2000x32_1_0_0_1_n_n.rhsBatch by decide), dif_pos (show (1 : Fin S64x32.rank) ∈ dot_S2000x64_S64x32_S2000x32_1_0_0_1_n_n.rhsNonContracting by decide)]
  rfl

/-- The block product into a zero accumulator, at row `p` and column `q`: the sum over the 64 contracted positions. -/
theorem mm2_apply (a : FVec Ideal S2000x64 .bf16) (w : FVec Ideal S64x32 .bf16) (p : Fin 2000) (q : Fin 32) :
    matmul (F := Ideal) dot_S2000x64_S64x32_S2000x32_1_0_0_1_n_n none a w (constant (F := Ideal) S2000x32 .f32 0x00000000#32) (ix2 p q)
      = ∑ k : Fin 64, a (ix2 p k) * w (ix2 k q) := by
  refine (Ideal.matmul_constant_zero_apply dot_S2000x64_S64x32_S2000x32_1_0_0_1_n_n none a w (ix2 p q)).trans ?_
  rw [← Equiv.sum_comp (ValueIdx.contrEquiv1 dot_S2000x64_S64x32_S2000x32_1_0_0_1_n_n 64 rfl rfl).symm]
  refine Finset.sum_congr rfl fun k _ => ?_
  have hk := ValueIdx.contrEquiv1_symm_val dot_S2000x64_S64x32_S2000x32_1_0_0_1_n_n 64 rfl rfl k
  have el : dot_S2000x64_S64x32_S2000x32_1_0_0_1_n_n.lhsIdx (ix2 p q) ((ValueIdx.contrEquiv1 dot_S2000x64_S64x32_S2000x32_1_0_0_1_n_n 64 rfl rfl).symm k) = ix2 p k := funext fun ax => Fin.ext (by
    match ax with
    | ⟨0, _⟩ => exact mm2_lhs_row _ _
    | ⟨1, _⟩ => exact (mm2_lhs_col _ _).trans hk)
  have er : dot_S2000x64_S64x32_S2000x32_1_0_0_1_n_n.rhsIdx (ix2 p q) ((ValueIdx.contrEquiv1 dot_S2000x64_S64x32_S2000x32_1_0_0_1_n_n 64 rfl rfl).symm k) = ix2 k q := funext fun ax => Fin.ext (by
    match ax with
    | ⟨0, _⟩ => exact (mm2_rhs_row _ _).trans hk
    | ⟨1, _⟩ => exact mm2_rhs_col _ _)
  rw [el, er]

/-- The bias as one row, repeated down the block: at `(p, q)` it is the bias at `q`. -/
theorem bias2_apply (b : Vec Ideal S32 .f32) (p : Fin 2000) (q : Fin 32) :
    broadcastTo S2000x32 (shapeCast S1x32 b shapeCasts_S32_S1x32) broadcasts_S1x32_S2000x32 (ix2 p q) = b (ix1 q) :=
  (broadcastTo_1b_ab_apply _ broadcasts_S1x32_S2000x32 p q).trans (shapeCast_a_1a_apply b shapeCasts_S32_S1x32 0 q)

/-- One element of the block the body stores: row `p` of the features times column `q` of the weights, plus the bias at `q`.
    (Recasting the features' block to its own shape, and narrowing an operand to the product's input width, change nothing.) -/
theorem pay2_apply (x0 : Vec Ideal S2000x64 .f32) (x1 : Vec Ideal S64x32 .f32) (x2 : Vec Ideal S32 .f32) (p : Fin 2000) (q : Fin 32) :
    k2_pay1 (F := Ideal) x0 x1 x2 (ix2 p q) = (∑ k : Fin 64, x0 (ix2 p k) * x1 (ix2 k q)) + x2 (ix1 q) := by
  unfold k2_pay1
  rw [shapeCast_self]
  refine (addf_apply _ _ (ix2 p q)).trans ?_
  refine congrArg₂ (· + ·) ?_ (bias2_apply x2 p q)
  exact mm2_apply _ _ p q

/-! ## The dense transform at row `r`, column `q` -/

/-- `Spec.lin` at `(r, q)`: row `r` of `X` times column `q` of `W`, plus `b` at `q`. -/
theorem lin_at {N D : Nat} (X : (⟨2, ![N, 64]⟩ : Shape).Idx → EReal) (W : (⟨2, ![64, D]⟩ : Shape).Idx → EReal)
    (b : (⟨1, ![D]⟩ : Shape).Idx → EReal) (r : Fin N) (q : Fin D) :
    Cert.Spec.lin N D X W b (ix2 r q) = (∑ k : Fin 64, X (ix2 r k) * W (ix2 k q)) + b (ix1 q) := by
  have hrow : ∀ k : Fin 64, Cert.Spec.rowAt (ix2 r q) k = ix2 r k := fun k => funext fun a => by
    match a with | ⟨0, _⟩ => rfl | ⟨1, _⟩ => rfl
  have hcol : ∀ k : Fin 64, Cert.Spec.colAt k (ix2 r q) = ix2 k q := fun k => funext fun a => by
    match a with | ⟨0, _⟩ => rfl | ⟨1, _⟩ => rfl
  have hb : Cert.Spec.colOf (ix2 r q) = ix1 q := funext fun a => by
    match a with | ⟨0, _⟩ => rfl
  unfold Cert.Spec.lin
  simp only [hrow, hcol, hb]

section Blocks

-- the buffer contents when a region is entered
variable (V : (c : Dev nD) → (b : Ref sig .tc) → Buf (Elt Ideal) ((c : Thread nD τ).loc b))

/-! ## Region 0: the blocks a grid point reads and writes -/

/-- The windows' index maps over the 50 grid points: the features' window and the output's sit at block row `t`; the weights'
    and the bias's windows are their whole arrays. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Row `p` of the features' block at point `t` is row `2000 t + p` of the features. -/
theorem xblk0_apply (c : Dev nD) (t : Fin cfg0.N) (p : Fin 2000) (k : Fin 64) (r : Fin 100000) (hr : r.val = 2000 * t.val + p.val) :
    (iblk0 V c 0 t : Vec Ideal S2000x64 .f32) (ix2 p k) = (V c (Pipeline.arrRef spec0 0) : S100000x64.Idx → EReal) (ix2 r k) := by
  obtain ⟨e0, e1, -⟩ := idx0 t
  show V c (Pipeline.arrRef spec0 0) (((cfg0.win 0).blk t).view.emb (ix2 p k)) = V c (Pipeline.arrRef spec0 0) (ix2 r k)
  refine congrArg _ (funext fun a => Fin.ext ?_)
  match a with
  | ⟨0, _⟩ => show win0_0.index t (0 : Fin 2) * 2000 + 1 * p.val = r.val; omega
  | ⟨1, _⟩ => show win0_0.index t (1 : Fin 2) * 64 + 1 * k.val = k.val; omega

/-- The weights' block at every point is the weight matrix. -/
theorem wblk0_apply (c : Dev nD) (t : Fin cfg0.N) (k : Fin 64) (q : Fin 64) :
    (iblk0 V c 1 t : Vec Ideal S64x64 .f32) (ix2 k q) = (V c (Pipeline.arrRef spec0 1) : S64x64.Idx → EReal) (ix2 k q) := by
  obtain ⟨-, -, e0, e1, -⟩ := idx0 t
  show V c (Pipeline.arrRef spec0 1) (((cfg0.win 1).blk t).view.emb (ix2 k q)) = V c (Pipeline.arrRef spec0 1) (ix2 k q)
  refine congrArg _ (funext fun a => Fin.ext ?_)
  match a with
  | ⟨0, _⟩ => show win0_1.index t (0 : Fin 2) * 64 + 1 * k.val = k.val; omega
  | ⟨1, _⟩ => show win0_1.index t (1 : Fin 2) * 64 + 1 * q.val = q.val; omega

/-- The bias's block at every point is the bias. -/
theorem bblk0_apply (c : Dev nD) (t : Fin cfg0.N) (q : Fin 64) :
    (iblk0 V c 2 t : Vec Ideal S64 .f32) (ix1 q) = (V c (Pipeline.arrRef spec0 2) : S64.Idx → EReal) (ix1 q) := by
  obtain ⟨-, -, -, -, e0, -⟩ := idx0 t
  show V c (Pipeline.arrRef spec0 2) (((cfg0.win 2).blk t).view.emb (ix1 q)) = V c (Pipeline.arrRef spec0 2) (ix1 q)
  refine congrArg _ (funext fun a => Fin.ext ?_)
  match a with
  | ⟨0, _⟩ => show win0_2.index t (0 : Fin 1) * 64 + 1 * q.val = q.val; omega

/-- Element `(p, q)` of the output's block at point `t` is element `(2000 t + p, q)` of the output array. -/
theorem oblk0_emb (t : Fin cfg0.N) (p : Fin 2000) (q : Fin 64) (r : Fin 100000) (hr : r.val = 2000 * t.val + p.val) :
    (((cfg0.win 3).blk t).view.emb (ix2 p q) : S100000x64.Idx) = ix2 r q := by
  obtain ⟨-, -, -, -, -, e0, e1⟩ := idx0 t
  refine funext fun a => Fin.ext ?_
  match a with
  | ⟨0, _⟩ => show win0_3.index t (0 : Fin 2) * 2000 + 1 * p.val = r.val; omega
  | ⟨1, _⟩ => show win0_3.index t (1 : Fin 2) * 64 + 1 * q.val = q.val; omega

/-- WHAT POINT `t` WRITES BACK is block `t` of the dense transform of the three arrays as the region finds them. -/
theorem flushed0 (c : Dev nD) (t : Fin cfg0.N) :
    (dat0 (F := Ideal) V c).flushed 3 t
      = ((cfg0.win 3).blk t).view.read (Elt Ideal)
          (Cert.Spec.lin 100000 64 (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero off2_zero]
  simp only [View.ld_unit_zero (S := S2000x64) off2_zero, View.ld_unit_zero (S := S64x64) off2_zero, View.ld_unit_zero (S := S64) off1_zero]
  funext j
  obtain ⟨p, q, rfl⟩ : ∃ (p : Fin 2000) (q : Fin 64), j = ix2 p q := ⟨j 0, j 1, eq_ix2 j⟩
  have hN : cfg0.N = 50 := N_0
  have ht : t.val < 50 := hN ▸ t.isLt
  let r : Fin 100000 := ⟨2000 * t.val + p.val, by have := p.isLt; omega⟩
  have hr : r.val = 2000 * t.val + p.val := rfl
  show k0_pay1 (F := Ideal) (iblk0 V c 0 t) (iblk0 V c 1 t) (iblk0 V c 2 t) (ix2 p q)
    = Cert.Spec.lin 100000 64 (V c (Pipeline.arrRef spec0 0)) (V c (Pipeline.arrRef spec0 1)) (V c (Pipeline.arrRef spec0 2))
        (((cfg0.win 3).blk t).view.emb (ix2 p q))
  rw [oblk0_emb t p q r hr, lin_at]
  refine (pay0_apply (iblk0 V c 0 t) (iblk0 V c 1 t) (iblk0 V c 2 t) p q).trans ?_
  exact congrArg₂ (· + ·)
    (Finset.sum_congr rfl fun k _ => congrArg₂ (· * ·) (xblk0_apply V c t p k r hr) (wblk0_apply V c t k q))
    (bblk0_apply V c t q)

/-- An index of the output array is in point `t`'s block iff each coordinate is in the block's range on its axis. -/
theorem mem_blk0 (t : Fin cfg0.N) (i : S100000x64.Idx) :
    i ∈ ((cfg0.win 3).blk t).view.set ↔ ∀ a : Fin 2, win0_3.index t a * S2000x64.size a ≤ (i a).val ∧ (i a).val < win0_3.index t a * S2000x64.size a + S2000x64.size a := by
  show i ∈ ((View.whole main_v4).slice (win0_3.rect t)).set ↔ _
  rw [View.set_slice_whole, Rect.mem_set_unit]
  exact Iff.rfl

/-- Every index of the output array is in the block of the point its row falls in: row `r` belongs to point `r / 2000`. -/
theorem cover0 (i : S100000x64.Idx) :
    ∃ t : Fin cfg0.N, (cfg0.win 3).flush t = true ∧ i ∈ ((cfg0.win 3).blk t).view.set := by
  have hN : cfg0.N = 50 := N_0
  have hi0 : (i 0).val < 100000 := idx2_lt0 i
  have hi1 : (i 1).val < 64 := idx2_lt1 i
  have hlt : (i 0).val / 2000 < cfg0.N := by rw [hN]; omega
  refine ⟨⟨(i 0).val / 2000, hlt⟩, flush0_3 _, ?_⟩
  rw [mem_blk0]
  obtain ⟨-, -, -, -, -, e0, e1⟩ := idx0 ⟨(i 0).val / 2000, hlt⟩
  intro a
  match a with
  | ⟨0, _⟩ =>
    show win0_3.index ⟨(i 0).val / 2000, hlt⟩ (0 : Fin 2) * 2000 ≤ (i 0).val ∧ (i 0).val < win0_3.index ⟨(i 0).val / 2000, hlt⟩ (0 : Fin 2) * 2000 + 2000
    rw [e0]
    show (i 0).val / 2000 * 2000 ≤ (i 0).val ∧ (i 0).val < (i 0).val / 2000 * 2000 + 2000
    omega
  | ⟨1, _⟩ =>
    show win0_3.index ⟨(i 0).val / 2000, hlt⟩ (1 : Fin 2) * 64 ≤ (i 1).val ∧ (i 1).val < win0_3.index ⟨(i 0).val / 2000, hlt⟩ (1 : Fin 2) * 64 + 64
    rw [e1]
    omega

/-! ## Region 2: the blocks a grid point reads and writes -/

/-- The windows' index maps over the 50 grid points: the features' window and the output's sit at block row `t`; the weights'
    and the bias's windows are their whole arrays. -/
theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- Row `p` of the features' block at point `t` is row `2000 t + p` of the features. -/
theorem xblk2_apply (c : Dev nD) (t : Fin cfg2.N) (p : Fin 2000) (k : Fin 64) (r : Fin 100000) (hr : r.val = 2000 * t.val + p.val) :
    (iblk2 V c 0 t : Vec Ideal S2000x64 .f32) (ix2 p k) = (V c (Pipeline.arrRef spec2 0) : S100000x64.Idx → EReal) (ix2 r k) := by
  obtain ⟨e0, e1, -⟩ := idx2 t
  show V c (Pipeline.arrRef spec2 0) (((cfg2.win 0).blk t).view.emb (ix2 p k)) = V c (Pipeline.arrRef spec2 0) (ix2 r k)
  refine congrArg _ (funext fun a => Fin.ext ?_)
  match a with
  | ⟨0, _⟩ => show win2_0.index t (0 : Fin 2) * 2000 + 1 * p.val = r.val; omega
  | ⟨1, _⟩ => show win2_0.index t (1 : Fin 2) * 64 + 1 * k.val = k.val; omega

/-- The weights' block at every point is the weight matrix. -/
theorem wblk2_apply (c : Dev nD) (t : Fin cfg2.N) (k : Fin 64) (q : Fin 32) :
    (iblk2 V c 1 t : Vec Ideal S64x32 .f32) (ix2 k q) = (V c (Pipeline.arrRef spec2 1) : S64x32.Idx → EReal) (ix2 k q) := by
  obtain ⟨-, -, e0, e1, -⟩ := idx2 t
  show V c (Pipeline.arrRef spec2 1) (((cfg2.win 1).blk t).view.emb (ix2 k q)) = V c (Pipeline.arrRef spec2 1) (ix2 k q)
  refine congrArg _ (funext fun a => Fin.ext ?_)
  match a with
  | ⟨0, _⟩ => show win2_1.index t (0 : Fin 2) * 64 + 1 * k.val = k.val; omega
  | ⟨1, _⟩ => show win2_1.index t (1 : Fin 2) * 32 + 1 * q.val = q.val; omega

/-- The bias's block at every point is the bias. -/
theorem bblk2_apply (c : Dev nD) (t : Fin cfg2.N) (q : Fin 32) :
    (iblk2 V c 2 t : Vec Ideal S32 .f32) (ix1 q) = (V c (Pipeline.arrRef spec2 2) : S32.Idx → EReal) (ix1 q) := by
  obtain ⟨-, -, -, -, e0, -⟩ := idx2 t
  show V c (Pipeline.arrRef spec2 2) (((cfg2.win 2).blk t).view.emb (ix1 q)) = V c (Pipeline.arrRef spec2 2) (ix1 q)
  refine congrArg _ (funext fun a => Fin.ext ?_)
  match a with
  | ⟨0, _⟩ => show win2_2.index t (0 : Fin 1) * 32 + 1 * q.val = q.val; omega

/-- Element `(p, q)` of the output's block at point `t` is element `(2000 t + p, q)` of the output array. -/
theorem oblk2_emb (t : Fin cfg2.N) (p : Fin 2000) (q : Fin 32) (r : Fin 100000) (hr : r.val = 2000 * t.val + p.val) :
    (((cfg2.win 3).blk t).view.emb (ix2 p q) : S100000x32.Idx) = ix2 r q := by
  obtain ⟨-, -, -, -, -, e0, e1⟩ := idx2 t
  refine funext fun a => Fin.ext ?_
  match a with
  | ⟨0, _⟩ => show win2_3.index t (0 : Fin 2) * 2000 + 1 * p.val = r.val; omega
  | ⟨1, _⟩ => show win2_3.index t (1 : Fin 2) * 32 + 1 * q.val = q.val; omega

/-- WHAT POINT `t` WRITES BACK is block `t` of the dense transform of the three arrays as the region finds them. -/
theorem flushed2 (c : Dev nD) (t : Fin cfg2.N) :
    (dat2 (F := Ideal) V c).flushed 3 t
      = ((cfg2.win 3).blk t).view.read (Elt Ideal)
          (Cert.Spec.lin 100000 32 (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero off2_zero]
  simp only [View.ld_unit_zero (S := S2000x64) off2_zero, View.ld_unit_zero (S := S64x32) off2_zero, View.ld_unit_zero (S := S32) off1_zero]
  funext j
  obtain ⟨p, q, rfl⟩ : ∃ (p : Fin 2000) (q : Fin 32), j = ix2 p q := ⟨j 0, j 1, eq_ix2 j⟩
  have hN : cfg2.N = 50 := N_2
  have ht : t.val < 50 := hN ▸ t.isLt
  let r : Fin 100000 := ⟨2000 * t.val + p.val, by have := p.isLt; omega⟩
  have hr : r.val = 2000 * t.val + p.val := rfl
  show k2_pay1 (F := Ideal) (iblk2 V c 0 t) (iblk2 V c 1 t) (iblk2 V c 2 t) (ix2 p q)
    = Cert.Spec.lin 100000 32 (V c (Pipeline.arrRef spec2 0)) (V c (Pipeline.arrRef spec2 1)) (V c (Pipeline.arrRef spec2 2))
        (((cfg2.win 3).blk t).view.emb (ix2 p q))
  rw [oblk2_emb t p q r hr, lin_at]
  refine (pay2_apply (iblk2 V c 0 t) (iblk2 V c 1 t) (iblk2 V c 2 t) p q).trans ?_
  exact congrArg₂ (· + ·)
    (Finset.sum_congr rfl fun k _ => congrArg₂ (· * ·) (xblk2_apply V c t p k r hr) (wblk2_apply V c t k q))
    (bblk2_apply V c t q)

/-- An index of the output array is in point `t`'s block iff each coordinate is in the block's range on its axis. -/
theorem mem_blk2 (t : Fin cfg2.N) (i : S100000x32.Idx) :
    i ∈ ((cfg2.win 3).blk t).view.set ↔ ∀ a : Fin 2, win2_3.index t a * S2000x32.size a ≤ (i a).val ∧ (i a).val < win2_3.index t a * S2000x32.size a + S2000x32.size a := by
  show i ∈ ((View.whole main_v43).slice (win2_3.rect t)).set ↔ _
  rw [View.set_slice_whole, Rect.mem_set_unit]
  exact Iff.rfl

/-- Every index of the output array is in the block of the point its row falls in: row `r` belongs to point `r / 2000`. -/
theorem cover2 (i : S100000x32.Idx) :
    ∃ t : Fin cfg2.N, (cfg2.win 3).flush t = true ∧ i ∈ ((cfg2.win 3).blk t).view.set := by
  have hN : cfg2.N = 50 := N_2
  have hi0 : (i 0).val < 100000 := idx2_lt0 i
  have hi1 : (i 1).val < 32 := idx2_lt1 i
  have hlt : (i 0).val / 2000 < cfg2.N := by rw [hN]; omega
  refine ⟨⟨(i 0).val / 2000, hlt⟩, flush2_3 _, ?_⟩
  rw [mem_blk2]
  obtain ⟨-, -, -, -, -, e0, e1⟩ := idx2 ⟨(i 0).val / 2000, hlt⟩
  intro a
  match a with
  | ⟨0, _⟩ =>
    show win2_3.index ⟨(i 0).val / 2000, hlt⟩ (0 : Fin 2) * 2000 ≤ (i 0).val ∧ (i 0).val < win2_3.index ⟨(i 0).val / 2000, hlt⟩ (0 : Fin 2) * 2000 + 2000
    rw [e0]
    show (i 0).val / 2000 * 2000 ≤ (i 0).val ∧ (i 0).val < (i 0).val / 2000 * 2000 + 2000
    omega
  | ⟨1, _⟩ =>
    show win2_3.index ⟨(i 0).val / 2000, hlt⟩ (1 : Fin 2) * 32 ≤ (i 1).val ∧ (i 1).val < win2_3.index ⟨(i 0).val / 2000, hlt⟩ (1 : Fin 2) * 32 + 32
    rw [e1]
    omega

end Blocks

-- the TensorCore's buffer contents when a region is entered: every region's value is stated at this parameter
variable (V : (c : Dev nD) → (b : Ref sig .tc) → Buf (Elt Ideal) ((c : Thread nD τ).loc b))

/-- Region 0 (64 → 64): its output array ends at the dense transform of its three input arrays. -/
theorem region0 (c : Dev nD) :
    (dat0 (F := Ideal) V c).arrAt 3 cfg0.N
      = Cert.Spec.lin 100000 64 (V c (Pipeline.arrRef spec0 0)) (V c (Pipeline.arrRef spec0 1)) (V c (Pipeline.arrRef spec0 2)) := by
  exact (dat0 (F := Ideal) V c).arrAt_eq_of_cover 3 _ (fun t _ => flushed0 V c t) cover0

/-- Region 2 (64 → 32): its output array ends at the dense transform of its three input arrays. -/
theorem region2 (c : Dev nD) :
    (dat2 (F := Ideal) V c).arrAt 3 cfg2.N
      = Cert.Spec.lin 100000 32 (V c (Pipeline.arrRef spec2 0)) (V c (Pipeline.arrRef spec2 1)) (V c (Pipeline.arrRef spec2 2)) := by
  exact (dat2 (F := Ideal) V c).arrAt_eq_of_cover 3 _ (fun t _ => flushed2 V c t) cover2

end Cert.KernelIdeal.KLin

end
-- ==== Proof.LibKeepdims.lean ====
/-
  A column of per-row values kept as a rank-2 array with a trailing unit axis, read at an index: what a row reduction
  with the reduced axis kept (a sum over the last axis that stays rank 2) needs on the way back to full width.

    [a] cast to [a, 1]          reads, at (i, u), the operand at i, whatever the unit coordinate u;
    [a, 1] broadcast to [a, b]  reads, at (p, c), the operand's row p at its one column.

  Both are the row-major position argument of the leading-unit-axis forms with the axes exchanged.
-/
import Idealize.ShloMosaic.Lib.ValueIdx
import Idealize.ShloMosaic.Lib.Pipeline.Value

namespace Idealize.ShloMosaic.Keepdims

open Idealize.ShloMosaic Idealize.ShloMosaic.ValueIdx

variable {α : Type}

/-- An `[a]` array cast to `[a, 1]` reads, at `(i, u)`, the operand at `i`: position `i · 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` array broadcast to `[a, b]` reads, at `(p, c)`, the operand's row `p` at its one column. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Idealize.ShloMosaic.Keepdims
-- ==== Proof.KEdge.lean ====
/-
  What the two edge-message regions leave in their output arrays.
  Each grid point `t` stages rows `[2000 t, 2000 t + 2000)` of the two gathered feature arrays and of the gathered
  transform, and writes back `hs_blk · w` where `w` is the per-row weight of the squared distance of the two feature
  rows. An element of the block depends only on its own row of the three inputs, so the block is block `t` of the
  whole-array function `Spec.edge`; the 800 blocks tile the 1600000 edges.
-/
import proofs.«108561_j16149077033547_1_alg».proof.Proof.Gen.KernelIdeal.Frame
import proofs.«108561_j16149077033547_1_alg».proof.Proof.Spec
import proofs.«108561_j16149077033547_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.KEdge

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The body's arithmetic at one element -/

/-- The lane sum of a 2000 × 64 block at row `p` is the sum of that row's 64 entries. -/
theorem rowSum_apply (x : FVec Ideal S2000x64 .f32) (hacc : (0x00000000#32 : BitVec 32) = 0x00000000#32) (p : Fin 2000) :
    multiReduction (F := Ideal) .add [1] S2000 x 0x00000000#32 reduces_S2000x64_S2000 (.inl rfl) hacc (ix1 p)
      = ∑ k : Fin 64, x (ix2 p k) := by
  refine (Ideal.multiReduction_add_single x 0x00000000#32 reduces_S2000x64_S2000 (.inl rfl) hacc (ix1 p)).trans ?_
  show ∑ k : Fin 64, x (reduces_S2000x64_S2000.lift (ix1 p) k) = _
  refine Finset.sum_congr rfl fun k _ => congrArg x ?_
  funext c
  apply Fin.ext
  match c with
  | ⟨0, _⟩ => rfl
  | ⟨1, _⟩ => rfl

set_option maxHeartbeats 400000 in
/-- One element of the body's result on 64-wide rows: the gathered transform's entry times the weight of its row's
    squared distance. -/
theorem pay1_apply (x0 x1 x2 : Vec Ideal S2000x64 .f32) (p : Fin 2000) (q : Fin 64) :
    k1_pay1 (F := Ideal) x0 x1 x2 (ix2 p q)
      = x2 (ix2 p q) * Cert.Spec.wgt (∑ k : Fin 64, (x0 (ix2 p k) - x1 (ix2 p k)) * (x0 (ix2 p k) - x1 (ix2 p k))) := by
  unfold k1_pay1
  simp only [shapeCast_self]
  refine (congrArg (x2 (ix2 p q) * ·) (Keepdims.broadcastTo_a1_ab_apply _ broadcasts_S2000x1_S2000x64 p q)).trans ?_
  refine congrArg (x2 (ix2 p q) * ·) ?_
  exact congrArg Cert.Spec.wgt
    ((Keepdims.shapeCast_a_a1_apply _ shapeCasts_S2000_S2000x1 p (0 : Fin 1)).trans
      (rowSum_apply (mulf (subf x0 x1) (subf x0 x1)) rfl p))

/-! ## Region 1: from the 800 blocks to the array -/

-- the contents of every array when a region is entered: every region's value is stated at this parameter
variable (V : (c : Dev nD) → (b : Ref sig .tc) → Buf (Elt Ideal) ((c : Thread nD τ).loc b))

theorem hz : (![0, 0] : Fin 2 → Nat) = fun _ => 0 := funext fun a => by fin_cases a <;> rfl

/-- The index in the row of `(r, q)` at column `k` is `(r, k)`. -/
theorem rowAt_ix2 {n0 n1 n2 : Nat} (r : Fin n0) (q : Fin n1) (k : Fin n2) : Cert.Spec.rowAt (ix2 r q) k = ix2 r k := by
  funext a
  match a with
  | ⟨0, _⟩ => rfl
  | ⟨1, _⟩ => rfl

/-- Region 1's index maps, decided over the 800 grid points: at point `t` every window stands on block `(t, 0)`. -/
theorem blockIndex1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

set_option maxHeartbeats 400000 in
/-- Row `p` of the first feature block at grid point `t` is row `2000 t + p` of the first gathered feature array. -/
theorem iblk1_0_apply (c : Dev nD) (t : Fin cfg1.N) (p : Fin 2000) (k : Fin 64) (r : Fin 1600000)
    (hr : r.val = 2000 * t.val + p.val) :
    (iblk1 (F := Ideal) V c 0 t : Vec Ideal S2000x64 .f32) (ix2 p k)
      = (V c (Pipeline.arrRef spec1 0) : S1600000x64.Idx → EReal) (ix2 r k) := by
  obtain ⟨e0, e1, -⟩ := blockIndex1 t
  unfold iblk1
  show V c (Pipeline.arrRef spec1 0) (((cfg1.win 0).blk t).view.emb (ix2 p k)) = _
  refine congrArg (V c (Pipeline.arrRef spec1 0)) ?_
  funext a
  apply Fin.ext
  match a with
  | ⟨0, _⟩ => show win1_0.index t (0 : Fin 2) * 2000 + 1 * p.val = r.val; omega
  | ⟨1, _⟩ => show win1_0.index t (1 : Fin 2) * 64 + 1 * k.val = k.val; omega

set_option maxHeartbeats 400000 in
/-- The same for the second gathered feature array. -/
theorem iblk1_1_apply (c : Dev nD) (t : Fin cfg1.N) (p : Fin 2000) (k : Fin 64) (r : Fin 1600000)
    (hr : r.val = 2000 * t.val + p.val) :
    (iblk1 (F := Ideal) V c 1 t : Vec Ideal S2000x64 .f32) (ix2 p k)
      = (V c (Pipeline.arrRef spec1 1) : S1600000x64.Idx → EReal) (ix2 r k) := by
  obtain ⟨-, -, e0, e1, -⟩ := blockIndex1 t
  unfold iblk1
  show V c (Pipeline.arrRef spec1 1) (((cfg1.win 1).blk t).view.emb (ix2 p k)) = _
  refine congrArg (V c (Pipeline.arrRef spec1 1)) ?_
  funext a
  apply Fin.ext
  match a with
  | ⟨0, _⟩ => show win1_1.index t (0 : Fin 2) * 2000 + 1 * p.val = r.val; omega
  | ⟨1, _⟩ => show win1_1.index t (1 : Fin 2) * 64 + 1 * k.val = k.val; omega

set_option maxHeartbeats 400000 in
/-- The same for the gathered transform. -/
theorem iblk1_2_apply (c : Dev nD) (t : Fin cfg1.N) (p : Fin 2000) (k : Fin 64) (r : Fin 1600000)
    (hr : r.val = 2000 * t.val + p.val) :
    (iblk1 (F := Ideal) V c 2 t : Vec Ideal S2000x64 .f32) (ix2 p k)
      = (V c (Pipeline.arrRef spec1 2) : S1600000x64.Idx → EReal) (ix2 r k) := by
  obtain ⟨-, -, -, -, e0, e1, -⟩ := blockIndex1 t
  unfold iblk1
  show V c (Pipeline.arrRef spec1 2) (((cfg1.win 2).blk t).view.emb (ix2 p k)) = _
  refine congrArg (V c (Pipeline.arrRef spec1 2)) ?_
  funext a
  apply Fin.ext
  match a with
  | ⟨0, _⟩ => show win1_2.index t (0 : Fin 2) * 2000 + 1 * p.val = r.val; omega
  | ⟨1, _⟩ => show win1_2.index t (1 : Fin 2) * 64 + 1 * k.val = k.val; omega

set_option maxHeartbeats 400000 in
/-- What grid point `t` writes back is block `t` of the edge messages of the three input arrays. -/
theorem flushed1_eq (c : Dev nD) (t : Fin cfg1.N) :
    (dat1 (F := Ideal) V c).flushed 3 t
      = ((cfg1.win 3).blk t).view.read (Elt Ideal)
          (Cert.Spec.edge 1600000 64 (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero hz]
  simp only [View.ld_unit_zero (S := S2000x64) hz]
  funext j
  obtain ⟨p, q, rfl⟩ : ∃ (p : Fin 2000) (q : Fin 64), j = ix2 p q := ⟨j 0, j 1, eq_ix2 j⟩
  obtain ⟨-, -, -, -, -, -, e0, e1⟩ := blockIndex1 t
  have hN : t.val < 800 := lt_of_lt_of_eq t.isLt N_1
  have hp : p.val < 2000 := p.isLt
  refine (pay1_apply (iblk1 V c 0 t) (iblk1 V c 1 t) (iblk1 V c 2 t) p q).trans ?_
  have hi : ((cfg1.win 3).blk t).view.emb (ix2 p q)
      = (ix2 (⟨2000 * t.val + p.val, by omega⟩ : Fin 1600000) q : S1600000x64.Idx) := by
    funext a
    apply Fin.ext
    match a with
    | ⟨0, _⟩ => show win1_3.index t (0 : Fin 2) * 2000 + 1 * p.val = 2000 * t.val + p.val; omega
    | ⟨1, _⟩ => show win1_3.index t (1 : Fin 2) * 64 + 1 * q.val = q.val; omega
  show _ = Cert.Spec.edge 1600000 64 (V c (Pipeline.arrRef spec1 0)) (V c (Pipeline.arrRef spec1 1)) (V c (Pipeline.arrRef spec1 2))
      (((cfg1.win 3).blk t).view.emb (ix2 p q))
  rw [hi]
  unfold Cert.Spec.edge Cert.Spec.sqdist
  refine congrArg₂ (· * ·) (iblk1_2_apply V c t p q _ rfl) (congrArg Cert.Spec.wgt (Finset.sum_congr rfl fun k _ => ?_))
  rw [rowAt_ix2]
  exact congrArg₂ (fun a b : EReal => (a - b) * (a - b)) (iblk1_0_apply V c t p k _ rfl) (iblk1_1_apply V c t p k _ rfl)

/-- An array index lies in grid point `t`'s block iff each coordinate lies in the block's range on its axis. -/
theorem mem_blk1 (t : Fin cfg1.N) (i : S1600000x64.Idx) :
    i ∈ ((cfg1.win 3).blk t).view.set
      ↔ ∀ a : Fin 2, win1_3.index t a * S2000x64.size a ≤ (i a).val
          ∧ (i a).val < win1_3.index t a * S2000x64.size a + S2000x64.size a := by
  show i ∈ ((View.whole main_v26).slice (win1_3.rect t)).set ↔ _
  rw [View.set_slice_whole, Rect.mem_set_unit]
  exact Iff.rfl

/-- Every edge row `r` lies in the block written back at grid point `r / 2000`: the 800 blocks tile the array. -/
theorem cover1 (i : S1600000x64.Idx) :
    ∃ t : Fin cfg1.N, (cfg1.win 3).flush t = true ∧ i ∈ ((cfg1.win 3).blk t).view.set := by
  have h0 : (i 0).val < 1600000 := (i 0).isLt
  have h1 : (i 1).val < 64 := (i 1).isLt
  have hN : cfg1.N = 800 := N_1
  obtain ⟨t, ht⟩ : ∃ t : Fin cfg1.N, t.val = (i 0).val / 2000 := ⟨⟨(i 0).val / 2000, by rw [hN]; omega⟩, rfl⟩
  obtain ⟨-, -, -, -, -, -, e0, e1⟩ := blockIndex1 t
  refine ⟨t, flush1_3 t, ?_⟩
  rw [mem_blk1]
  intro a
  match a with
  | ⟨0, _⟩ =>
    show win1_3.index t (0 : Fin 2) * 2000 ≤ (i 0).val ∧ (i 0).val < win1_3.index t (0 : Fin 2) * 2000 + 2000
    omega
  | ⟨1, _⟩ =>
    show win1_3.index t (1 : Fin 2) * 64 ≤ (i 1).val ∧ (i 1).val < win1_3.index t (1 : Fin 2) * 64 + 64
    omega

/-- Region 1 (messages of width 64): its output array ends at the edge messages of its three input arrays. -/
theorem region1 (c : Dev nD) :
    (dat1 (F := Ideal) V c).arrAt 3 cfg1.N
      = Cert.Spec.edge 1600000 64 (V c (Pipeline.arrRef spec1 0)) (V c (Pipeline.arrRef spec1 1)) (V c (Pipeline.arrRef spec1 2)) :=
  (dat1 V c).arrAt_eq_of_cover 3 _ (fun t _ => flushed1_eq V c t) cover1

/-! ## Region 3: the same body on 32-wide transform rows -/

set_option maxHeartbeats 400000 in
/-- One element of the body's result on 32-wide rows: the gathered transform's entry times the weight of its row's
    squared distance (the distance is still taken over the 64 feature columns). -/
theorem pay3_apply (x0 x1 : Vec Ideal S2000x64 .f32) (x2 : Vec Ideal S2000x32 .f32) (p : Fin 2000) (q : Fin 32) :
    k3_pay1 (F := Ideal) x0 x1 x2 (ix2 p q)
      = x2 (ix2 p q) * Cert.Spec.wgt (∑ k : Fin 64, (x0 (ix2 p k) - x1 (ix2 p k)) * (x0 (ix2 p k) - x1 (ix2 p k))) := by
  unfold k3_pay1
  simp only [shapeCast_self]
  refine (congrArg (x2 (ix2 p q) * ·) (Keepdims.broadcastTo_a1_ab_apply _ broadcasts_S2000x1_S2000x32 p q)).trans ?_
  refine congrArg (x2 (ix2 p q) * ·) ?_
  exact congrArg Cert.Spec.wgt
    ((Keepdims.shapeCast_a_a1_apply _ shapeCasts_S2000_S2000x1 p (0 : Fin 1)).trans
      (rowSum_apply (mulf (subf x0 x1) (subf x0 x1)) rfl p))

/-- Region 3's index maps, decided over the 800 grid points: at point `t` every window stands on block `(t, 0)`. -/
theorem blockIndex3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

set_option maxHeartbeats 400000 in
/-- Row `p` of the first feature block at grid point `t` is row `2000 t + p` of the first gathered feature array. -/
theorem iblk3_0_apply (c : Dev nD) (t : Fin cfg3.N) (p : Fin 2000) (k : Fin 64) (r : Fin 1600000)
    (hr : r.val = 2000 * t.val + p.val) :
    (iblk3 (F := Ideal) V c 0 t : Vec Ideal S2000x64 .f32) (ix2 p k)
      = (V c (Pipeline.arrRef spec3 0) : S1600000x64.Idx → EReal) (ix2 r k) := by
  obtain ⟨e0, e1, -⟩ := blockIndex3 t
  unfold iblk3
  show V c (Pipeline.arrRef spec3 0) (((cfg3.win 0).blk t).view.emb (ix2 p k)) = _
  refine congrArg (V c (Pipeline.arrRef spec3 0)) ?_
  funext a
  apply Fin.ext
  match a with
  | ⟨0, _⟩ => show win3_0.index t (0 : Fin 2) * 2000 + 1 * p.val = r.val; omega
  | ⟨1, _⟩ => show win3_0.index t (1 : Fin 2) * 64 + 1 * k.val = k.val; omega

set_option maxHeartbeats 400000 in
/-- The same for the second gathered feature array. -/
theorem iblk3_1_apply (c : Dev nD) (t : Fin cfg3.N) (p : Fin 2000) (k : Fin 64) (r : Fin 1600000)
    (hr : r.val = 2000 * t.val + p.val) :
    (iblk3 (F := Ideal) V c 1 t : Vec Ideal S2000x64 .f32) (ix2 p k)
      = (V c (Pipeline.arrRef spec3 1) : S1600000x64.Idx → EReal) (ix2 r k) := by
  obtain ⟨-, -, e0, e1, -⟩ := blockIndex3 t
  unfold iblk3
  show V c (Pipeline.arrRef spec3 1) (((cfg3.win 1).blk t).view.emb (ix2 p k)) = _
  refine congrArg (V c (Pipeline.arrRef spec3 1)) ?_
  funext a
  apply Fin.ext
  match a with
  | ⟨0, _⟩ => show win3_1.index t (0 : Fin 2) * 2000 + 1 * p.val = r.val; omega
  | ⟨1, _⟩ => show win3_1.index t (1 : Fin 2) * 64 + 1 * k.val = k.val; omega

set_option maxHeartbeats 400000 in
/-- The same for the 32-wide gathered transform. -/
theorem iblk3_2_apply (c : Dev nD) (t : Fin cfg3.N) (p : Fin 2000) (k : Fin 32) (r : Fin 1600000)
    (hr : r.val = 2000 * t.val + p.val) :
    (iblk3 (F := Ideal) V c 2 t : Vec Ideal S2000x32 .f32) (ix2 p k)
      = (V c (Pipeline.arrRef spec3 2) : S1600000x32.Idx → EReal) (ix2 r k) := by
  obtain ⟨-, -, -, -, e0, e1, -⟩ := blockIndex3 t
  unfold iblk3
  show V c (Pipeline.arrRef spec3 2) (((cfg3.win 2).blk t).view.emb (ix2 p k)) = _
  refine congrArg (V c (Pipeline.arrRef spec3 2)) ?_
  funext a
  apply Fin.ext
  match a with
  | ⟨0, _⟩ => show win3_2.index t (0 : Fin 2) * 2000 + 1 * p.val = r.val; omega
  | ⟨1, _⟩ => show win3_2.index t (1 : Fin 2) * 32 + 1 * k.val = k.val; omega

set_option maxHeartbeats 400000 in
/-- What grid point `t` writes back is block `t` of the 32-wide edge messages of the three input arrays. -/
theorem flushed3_eq (c : Dev nD) (t : Fin cfg3.N) :
    (dat3 (F := Ideal) V c).flushed 3 t
      = ((cfg3.win 3).blk t).view.read (Elt Ideal)
          (Cert.Spec.edge 1600000 32 (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero hz]
  simp only [View.ld_unit_zero (S := S2000x64) hz, View.ld_unit_zero (S := S2000x32) hz]
  funext j
  obtain ⟨p, q, rfl⟩ : ∃ (p : Fin 2000) (q : Fin 32), j = ix2 p q := ⟨j 0, j 1, eq_ix2 j⟩
  obtain ⟨-, -, -, -, -, -, e0, e1⟩ := blockIndex3 t
  have hN : t.val < 800 := lt_of_lt_of_eq t.isLt N_3
  have hp : p.val < 2000 := p.isLt
  refine (pay3_apply (iblk3 V c 0 t) (iblk3 V c 1 t) (iblk3 V c 2 t) p q).trans ?_
  have hi : ((cfg3.win 3).blk t).view.emb (ix2 p q)
      = (ix2 (⟨2000 * t.val + p.val, by omega⟩ : Fin 1600000) q : S1600000x32.Idx) := by
    funext a
    apply Fin.ext
    match a with
    | ⟨0, _⟩ => show win3_3.index t (0 : Fin 2) * 2000 + 1 * p.val = 2000 * t.val + p.val; omega
    | ⟨1, _⟩ => show win3_3.index t (1 : Fin 2) * 32 + 1 * q.val = q.val; omega
  show _ = Cert.Spec.edge 1600000 32 (V c (Pipeline.arrRef spec3 0)) (V c (Pipeline.arrRef spec3 1)) (V c (Pipeline.arrRef spec3 2))
      (((cfg3.win 3).blk t).view.emb (ix2 p q))
  rw [hi]
  unfold Cert.Spec.edge Cert.Spec.sqdist
  refine congrArg₂ (· * ·) (iblk3_2_apply V c t p q _ rfl) (congrArg Cert.Spec.wgt (Finset.sum_congr rfl fun k _ => ?_))
  rw [rowAt_ix2]
  exact congrArg₂ (fun a b : EReal => (a - b) * (a - b)) (iblk3_0_apply V c t p k _ rfl) (iblk3_1_apply V c t p k _ rfl)

/-- An array index lies in grid point `t`'s block iff each coordinate lies in the block's range on its axis. -/
theorem mem_blk3 (t : Fin cfg3.N) (i : S1600000x32.Idx) :
    i ∈ ((cfg3.win 3).blk t).view.set
      ↔ ∀ a : Fin 2, win3_3.index t a * S2000x32.size a ≤ (i a).val
          ∧ (i a).val < win3_3.index t a * S2000x32.size a + S2000x32.size a := by
  show i ∈ ((View.whole main_v65).slice (win3_3.rect t)).set ↔ _
  rw [View.set_slice_whole, Rect.mem_set_unit]
  exact Iff.rfl

/-- Every edge row `r` lies in the block written back at grid point `r / 2000`: the 800 blocks tile the array. -/
theorem cover3 (i : S1600000x32.Idx) :
    ∃ t : Fin cfg3.N, (cfg3.win 3).flush t = true ∧ i ∈ ((cfg3.win 3).blk t).view.set := by
  have h0 : (i 0).val < 1600000 := (i 0).isLt
  have h1 : (i 1).val < 32 := (i 1).isLt
  have hN : cfg3.N = 800 := N_3
  obtain ⟨t, ht⟩ : ∃ t : Fin cfg3.N, t.val = (i 0).val / 2000 := ⟨⟨(i 0).val / 2000, by rw [hN]; omega⟩, rfl⟩
  obtain ⟨-, -, -, -, -, -, e0, e1⟩ := blockIndex3 t
  refine ⟨t, flush3_3 t, ?_⟩
  rw [mem_blk3]
  intro a
  match a with
  | ⟨0, _⟩ =>
    show win3_3.index t (0 : Fin 2) * 2000 ≤ (i 0).val ∧ (i 0).val < win3_3.index t (0 : Fin 2) * 2000 + 2000
    omega
  | ⟨1, _⟩ =>
    show win3_3.index t (1 : Fin 2) * 32 ≤ (i 1).val ∧ (i 1).val < win3_3.index t (1 : Fin 2) * 32 + 32
    omega

/-- Region 3 (messages of width 32): its output array ends at the edge messages of its three input arrays. -/
theorem region3 (c : Dev nD) :
    (dat3 (F := Ideal) V c).arrAt 3 cfg3.N
      = Cert.Spec.edge 1600000 32 (V c (Pipeline.arrRef spec3 0)) (V c (Pipeline.arrRef spec3 1)) (V c (Pipeline.arrRef spec3 2)) :=
  (dat3 V c).arrAt_eq_of_cover 3 _ (fun t _ => flushed3_eq V c t) cover3

end Cert.KernelIdeal.KEdge

end
-- ==== Proof.RefStages.lean ====
/-
  The reference's four stages that the kernel's regions compute, read index by index.
  * its dense transform `x · W + b` (a `dot_general` plus the bias broadcast along the rows) is `Spec.lin`;
  * its message `h[src] · w[:, None]` with `w = 1 / (1 / √(1 - v² + ε))`, `v = tanh ‖x[src] - x[dst]‖ · c`, is `Spec.edge` of the
    three gathered arrays: the norm is the square root of the row sum of squares, and the double reciprocal of the weight
    is the weight (`Spec.div_div_wgt`).
  Both layers: the second layer's features are the first layer's output after the rectifier, carried as one opaque array.
-/
import proofs.«108561_j16149077033547_1_alg».proof.Proof.Gen.ReferenceIdeal.Run
import proofs.«108561_j16149077033547_1_alg».proof.Proof.Gen.ReferenceIdeal.Read
import proofs.«108561_j16149077033547_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.RefStages

open Cert.ReferenceIdeal Cert.ReferenceIdeal.Gen Cert.ReferenceIdeal.Read
open Idealize.ShloMosaic Idealize.ShloMosaic.TcCoe Idealize.ShloMosaic.ValueIdx Idealize.SL.Sem

variable (x0 : (⟨S100000x64, .f32⟩ : BufTy).Contents (Elt Ideal)) (x1 : (⟨S2x1600000, .i32⟩ : BufTy).Contents (Elt Ideal))
  (x2 : (⟨S64x64, .f32⟩ : BufTy).Contents (Elt Ideal)) (x3 : (⟨S64, .f32⟩ : BufTy).Contents (Elt Ideal))
  (x4 : (⟨S64x32, .f32⟩ : BufTy).Contents (Elt Ideal)) (x5 : (⟨S32, .f32⟩ : BufTy).Contents (Elt Ideal))

/-! ## The edge weight on one row, over the extended reals

  Both layers send a row's sum of squares through the same scalar chain. It is stated once, for an arbitrary extended
  real, in the reference's own float operations. -/

/-- The square of a difference of two entries, in the reference's float operations at the extended reals. -/
theorem sq_scalar (a b : EReal) :
    FloatOps.mulf (F := Ideal) (φ := .f32) (FloatOps.subf (F := Ideal) (φ := .f32) a b) (FloatOps.subf (F := Ideal) (φ := .f32) a b)
      = (a - b) * (a - b) := rfl

/-- The reference's chain from a row's sum of squares `s` (accumulated from the zero word) to the edge weight:
    `1 / (1 / √(1 - (tanh √s · c)² + ε))`, which is `Spec.wgt s` because the double reciprocal of the weight is the weight. -/
theorem wgt_chain (s : EReal) :
    FloatOps.hostDivf (F := Ideal) (φ := .f32) (FloatOps.ofBits .f32 0x3F800000#32)
      (FloatOps.hostDivf (FloatOps.ofBits .f32 0x3F800000#32)
        (FloatOps.hostUnary .sqrt
          (FloatOps.addf
            (FloatOps.subf (FloatOps.ofBits .f32 0x3F800000#32)
              (FloatOps.mulf
                (FloatOps.mulf (FloatOps.hostUnary .tanh (FloatOps.hostUnary .sqrt (FloatOps.ofBits (F := Ideal) .f32 0x00000000#32 + s))) (FloatOps.ofBits .f32 0x3F666666#32))
                (FloatOps.mulf (FloatOps.hostUnary .tanh (FloatOps.hostUnary .sqrt (FloatOps.ofBits (F := Ideal) .f32 0x00000000#32 + s))) (FloatOps.ofBits .f32 0x3F666666#32))))
            (FloatOps.ofBits .f32 0x358637BD#32))))
      = Cert.Spec.wgt s := by
  -- Over the extended reals the operations are the field's, and the zero word is 0.
  simp only [Ideal.mulf_def, Ideal.addf_def, Ideal.subf_def, Ideal.hostDivf_def, Ideal.hostUnary_sqrt_def,
    Ideal.hostUnary_tanh_def, Ideal.ofBits_def, Ideal.ofBits_zero_f32, zero_add]
  exact Cert.Spec.div_div_wgt s

/-! ## Layer 1 -/

/-- Layer 1's dense transform. -/
theorem lin1 : val_main_v7 (F := Ideal) x0 x2 x3 = Cert.Spec.lin 100000 64 x0 x2 x3 := by
  funext i
  -- The contraction at `(r, j)` meets the features in row `r` at column `k` and the weights in row `k` at column `j`.
  have el : ∀ k : Fin 64, lidx_main_v4 i k = Cert.Spec.rowAt i k := fun k =>
    funext fun a => Fin.ext (by match a with | ⟨0, _⟩ => rfl | ⟨1, _⟩ => rfl)
  have er : ∀ k : Fin 64, ridx_main_v4 i k = Cert.Spec.colAt k i := fun k =>
    funext fun a => Fin.ext (by match a with | ⟨0, _⟩ => rfl | ⟨1, _⟩ => rfl)
  -- The bias goes [64] → [1, 64] → [N, 64]: at `(r, j)` it is read at `j`.
  have eb : idx_main_v5 (idx_main_v6 i) = Cert.Spec.colOf i :=
    funext fun a => Fin.ext (by match a with | ⟨0, _⟩ => rfl)
  rw [val_main_v7_apply, val_main_v4_apply, val_main_v6_apply, val_main_v5_apply]
  simp only [el, er, eb, Ideal.addf_def]
  rfl

/-- Layer 1's messages, from its three gathered arrays. -/
theorem edge1 : val_main_v46 (F := Ideal) x0 x1 x2 x3
    = Cert.Spec.edge 1600000 64 (val_main_v14 (F := Ideal) x0 x1) (val_main_v21 (F := Ideal) x0 x1) (val_main_v43 (F := Ideal) x0 x1 x2 x3) := by
  funext i
  -- The edge's scalar weight goes [E] → [E, 1] → [E, 64]: at `(e, j)` it is the weight of edge `e`, whose row sum
  -- runs over the 64 entries `(e, k)` of the difference of the two gathered feature rows.
  have erow : ∀ k : Fin 64, idx_main_call0_v1 (idx_main_v44 (idx_main_v45 i)) k = Cert.Spec.rowAt i k := fun k =>
    funext fun a => Fin.ext (by match a with | ⟨0, _⟩ => rfl | ⟨1, _⟩ => rfl)
  -- The row's sum of squares is the squared distance of the two gathered rows; entry by entry the two gathered
  -- arrays are only read, so they may be any arrays.
  have hsum : ∑ k : Fin 64, val_main_call0_v0 (F := Ideal) x0 x1 (idx_main_call0_v1 (idx_main_v44 (idx_main_v45 i)) k)
      = Cert.Spec.sqdist 1600000 64 (val_main_v14 (F := Ideal) x0 x1) (val_main_v21 (F := Ideal) x0 x1) i := by
    unfold Cert.Spec.sqdist
    refine Finset.sum_congr rfl fun k _ => ?_
    rw [erow k, val_main_call0_v0_apply, val_main_v22_apply]
    generalize val_main_v14 (F := Ideal) x0 x1 = fs
    generalize val_main_v21 (F := Ideal) x0 x1 = fd
    exact sq_scalar (fs (Cert.Spec.rowAt i k)) (fd (Cert.Spec.rowAt i k))
  -- The product at `(e, j)`: the gathered transform row, which is only read, times the broadcast weight.
  rw [val_main_v46_apply]
  generalize val_main_v43 (F := Ideal) x0 x1 x2 x3 = hs
  -- From the broadcast down to the sum of squares, one stage at a time; every splat constant reads its own word.
  rw [val_main_v45_apply, val_main_v44_apply, val_main_v36_apply, val_main_v35_apply,
    val_main_cst_6_apply, val_main_v34_apply, val_main_v33_apply, val_main_cst_5_apply, val_main_v32_apply,
    val_main_v31_apply, val_main_v30_apply, val_main_cst_4_apply, val_main_v29_apply, val_main_v28_apply,
    val_main_cst_3_apply, val_main_v27_apply, val_main_v26_apply, val_main_v25_apply, val_main_cst_apply,
    val_main_v24_apply, val_main_v23_apply, val_main_call0_v1_apply, val_main_call0_cst_apply]
  -- The scalar chain on the squared distance is the weight.
  rw [hsum, wgt_chain]
  generalize val_main_v14 (F := Ideal) x0 x1 = fs
  generalize val_main_v21 (F := Ideal) x0 x1 = fd
  rfl

/-! ## Layer 2

  The same two stages with 32 output columns; the features are the rectified layer-1 output, one opaque array of
  64 columns, so the contraction and the row sum still run over 64 entries. -/

/-- Layer 2's dense transform of the rectified layer-1 output. -/
theorem lin2 : val_main_v66 (F := Ideal) x0 x1 x2 x3 x4 x5 = Cert.Spec.lin 100000 32 (val_main_v58 (F := Ideal) x0 x1 x2 x3) x4 x5 := by
  funext i
  -- The contraction at `(r, j)`, `j < 32`, meets the features in row `r` at column `k` and the weights in row `k` at column `j`.
  have el : ∀ k : Fin 64, lidx_main_v63 i k = Cert.Spec.rowAt i k := fun k =>
    funext fun a => Fin.ext (by match a with | ⟨0, _⟩ => rfl | ⟨1, _⟩ => rfl)
  have er : ∀ k : Fin 64, ridx_main_v63 i k = Cert.Spec.colAt k i := fun k =>
    funext fun a => Fin.ext (by match a with | ⟨0, _⟩ => rfl | ⟨1, _⟩ => rfl)
  -- The bias goes [32] → [1, 32] → [N, 32]: at `(r, j)` it is read at `j`.
  have eb : idx_main_v64 (idx_main_v65 i) = Cert.Spec.colOf i :=
    funext fun a => Fin.ext (by match a with | ⟨0, _⟩ => rfl)
  rw [val_main_v66_apply, val_main_v63_apply]
  -- The rectified layer-1 output is only read at an index: an arbitrary array from here on.
  generalize val_main_v58 (F := Ideal) x0 x1 x2 x3 = h
  rw [val_main_v65_apply, val_main_v64_apply]
  simp only [el, er, eb, Ideal.addf_def]
  rfl

/-- Layer 2's messages, from its three gathered arrays. -/
theorem edge2 : val_main_v105 (F := Ideal) x0 x1 x2 x3 x4 x5
    = Cert.Spec.edge 1600000 32 (val_main_v73 (F := Ideal) x0 x1 x2 x3) (val_main_v80 (F := Ideal) x0 x1 x2 x3) (val_main_v102 (F := Ideal) x0 x1 x2 x3 x4 x5) := by
  funext i
  -- The edge's scalar weight goes [E] → [E, 1] → [E, 32]: at `(e, j)` it is the weight of edge `e`, whose row sum
  -- runs over the 64 entries `(e, k)` of the difference of the two gathered feature rows.
  have erow : ∀ k : Fin 64, idx_main_call3_v1 (idx_main_v103 (idx_main_v104 i)) k = Cert.Spec.rowAt i k := fun k =>
    funext fun a => Fin.ext (by match a with | ⟨0, _⟩ => rfl | ⟨1, _⟩ => rfl)
  -- The row's sum of squares is the squared distance of the two gathered rows; entry by entry the two gathered
  -- arrays are only read, so they may be any arrays.
  have hsum : ∑ k : Fin 64, val_main_call3_v0 (F := Ideal) x0 x1 x2 x3 (idx_main_call3_v1 (idx_main_v103 (idx_main_v104 i)) k)
      = Cert.Spec.sqdist 1600000 32 (val_main_v73 (F := Ideal) x0 x1 x2 x3) (val_main_v80 (F := Ideal) x0 x1 x2 x3) i := by
    unfold Cert.Spec.sqdist
    refine Finset.sum_congr rfl fun k _ => ?_
    rw [erow k, val_main_call3_v0_apply, val_main_v81_apply]
    generalize val_main_v73 (F := Ideal) x0 x1 x2 x3 = fs
    generalize val_main_v80 (F := Ideal) x0 x1 x2 x3 = fd
    exact sq_scalar (fs (Cert.Spec.rowAt i k)) (fd (Cert.Spec.rowAt i k))
  -- The product at `(e, j)`: the gathered transform row, which is only read, times the broadcast weight.
  rw [val_main_v105_apply]
  generalize val_main_v102 (F := Ideal) x0 x1 x2 x3 x4 x5 = hs
  -- From the broadcast down to the sum of squares, one stage at a time; every splat constant reads its own word.
  rw [val_main_v104_apply, val_main_v103_apply, val_main_v95_apply, val_main_v94_apply,
    val_main_cst_21_apply, val_main_v93_apply, val_main_v92_apply, val_main_cst_20_apply, val_main_v91_apply,
    val_main_v90_apply, val_main_v89_apply, val_main_cst_19_apply, val_main_v88_apply, val_main_v87_apply,
    val_main_cst_18_apply, val_main_v86_apply, val_main_v85_apply, val_main_v84_apply, val_main_cst_17_apply,
    val_main_v83_apply, val_main_v82_apply, val_main_call3_v1_apply, val_main_call3_cst_apply]
  -- The scalar chain on the squared distance is the weight.
  rw [hsum, wgt_chain]
  generalize val_main_v73 (F := Ideal) x0 x1 x2 x3 = fs
  generalize val_main_v80 (F := Ideal) x0 x1 x2 x3 = fd
  rfl

end Cert.ReferenceIdeal.RefStages

end
-- ==== Proof.KChain.lean ====
/-
  The kernel program's result buffer, followed through its fifteen segments, is the reference's last stage.
  The program is: slice the edge list into sources and destinations; REGION 0 the dense transform; normalise the
  (possibly negative) indices and gather the features at both ends of each edge and the transform at its source;
  REGION 1 the messages; scatter-add messages and ones by destination, clip the degree at 1, divide, rectify; slice the
  edge list again; REGION 2; gather; REGION 3; scatter-add, clip, divide. The reference applies the SAME host operations
  in the same order around its own dense transform and message stages, so every boundary buffer of the kernel program
  equals a stage of the reference as a function of the six arguments: a host stretch by running its operations on the
  previous boundary, a region by its value (`Spec.lin` / `Spec.edge`) met from the reference's side.
-/
import proofs.«108561_j16149077033547_1_alg».proof.Proof.Gen.KernelIdeal.Frame
import proofs.«108561_j16149077033547_1_alg».proof.Proof.KLin
import proofs.«108561_j16149077033547_1_alg».proof.Proof.KEdge
import proofs.«108561_j16149077033547_1_alg».proof.Proof.RefStages
import Idealize.ShloMosaic.Lib.StableHlo.Run

set_option maxRecDepth 16384

noncomputable section

namespace Cert.KernelIdeal.KChain

open Cert.KernelIdeal Cert.KernelIdeal.Gen Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The six arguments as launched. -/
abbrev A0 := m ((c.tc : Thread nD τ).loc main_arg0)
abbrev A1 := m ((c.tc : Thread nD τ).loc main_arg1)
abbrev A2 := m ((c.tc : Thread nD τ).loc main_arg2)
abbrev A3 := m ((c.tc : Thread nD τ).loc main_arg3)
abbrev A4 := m ((c.tc : Thread nD τ).loc main_arg4)
abbrev A5 := m ((c.tc : Thread nD τ).loc main_arg5)

/-! ## Stretch 0: the edge list sliced into sources and destinations -/

theorem w1_arg0 : W1 m ρ c (Proc.devRef .tc main_arg0) = A0 m c := by
  show after hostOps0 (W0 m ρ c) (Proc.devRef .tc main_arg0) = _
  dsimp only [hostOps0]; after_results_simp
theorem w1_arg1 : W1 m ρ c (Proc.devRef .tc main_arg1) = A1 m c := by
  show after hostOps0 (W0 m ρ c) (Proc.devRef .tc main_arg1) = _
  dsimp only [hostOps0]; after_results_simp
theorem w1_arg2 : W1 m ρ c (Proc.devRef .tc main_arg2) = A2 m c := by
  show after hostOps0 (W0 m ρ c) (Proc.devRef .tc main_arg2) = _
  dsimp only [hostOps0]; after_results_simp
theorem w1_arg3 : W1 m ρ c (Proc.devRef .tc main_arg3) = A3 m c := by
  show after hostOps0 (W0 m ρ c) (Proc.devRef .tc main_arg3) = _
  dsimp only [hostOps0]; after_results_simp
theorem w1_arg4 : W1 m ρ c (Proc.devRef .tc main_arg4) = A4 m c := by
  show after hostOps0 (W0 m ρ c) (Proc.devRef .tc main_arg4) = _
  dsimp only [hostOps0]; after_results_simp
theorem w1_arg5 : W1 m ρ c (Proc.devRef .tc main_arg5) = A5 m c := by
  show after hostOps0 (W0 m ρ c) (Proc.devRef .tc main_arg5) = _
  dsimp only [hostOps0]; after_results_simp

/-- The sources. -/
theorem w1_v1 : W1 m ρ c (Proc.devRef .tc main_v1) = val_main_v1 (F := Ideal) (A1 m c) := by
  show after hostOps0 (W0 m ρ c) (Proc.devRef .tc main_v1) = _
  dsimp only [hostOps0]; after_results_simp
  unfold val_main_v1 val_main_v0; rfl
/-- The destinations. -/
theorem w1_v3 : W1 m ρ c (Proc.devRef .tc main_v3) = val_main_v3 (F := Ideal) (A1 m c) := by
  show after hostOps0 (W0 m ρ c) (Proc.devRef .tc main_v3) = _
  dsimp only [hostOps0]; after_results_simp
  unfold val_main_v3 val_main_v2; rfl

/-! ## Region 0: the first dense transform -/

theorem w2_v4 : W2 m ρ c (Proc.devRef .tc main_v4) = val_main_v7 (F := Ideal) (A0 m c) (A2 m c) (A3 m c) := by
  refine (W2_arr m ρ c 3).trans ((Cert.KernelIdeal.KLin.region0 (V1 m ρ) c).trans ?_)
  show Cert.Spec.lin 100000 64 (W1 m ρ c (Proc.devRef .tc main_arg0)) (W1 m ρ c (Proc.devRef .tc main_arg2)) (W1 m ρ c (Proc.devRef .tc main_arg3)) = _
  rw [w1_arg0, w1_arg2, w1_arg3]
  exact (Cert.ReferenceIdeal.RefStages.lin1 _ _ _).symm
theorem w2_arg0 : W2 m ρ c (Proc.devRef .tc main_arg0) = A0 m c :=
  ((W2_arr m ρ c 0).trans (((dat0 (V1 m ρ) c).arrAt_in 0 rfl _).trans (A_eq0 (V1 m ρ) c 0))).trans (w1_arg0 m ρ c)
theorem w2_v1 : W2 m ρ c (Proc.devRef .tc main_v1) = val_main_v1 (F := Ideal) (A1 m c) :=
  (W2_of_ne m ρ c main_v1 (by decide)).trans (w1_v1 m ρ c)
theorem w2_v3 : W2 m ρ c (Proc.devRef .tc main_v3) = val_main_v3 (F := Ideal) (A1 m c) :=
  (W2_of_ne m ρ c main_v3 (by decide)).trans (w1_v3 m ρ c)
theorem w2_arg1 : W2 m ρ c (Proc.devRef .tc main_arg1) = A1 m c :=
  (W2_of_ne m ρ c main_arg1 (by decide)).trans (w1_arg1 m ρ c)
theorem w2_arg4 : W2 m ρ c (Proc.devRef .tc main_arg4) = A4 m c :=
  (W2_of_ne m ρ c main_arg4 (by decide)).trans (w1_arg4 m ρ c)
theorem w2_arg5 : W2 m ρ c (Proc.devRef .tc main_arg5) = A5 m c :=
  (W2_of_ne m ρ c main_arg5 (by decide)).trans (w1_arg5 m ρ c)

/-! ## Stretch 1: the indices normalised, the three gathers -/

/-- The features at each edge's source. -/
theorem w3_v11 : W3 m ρ c (Proc.devRef .tc main_v11) = val_main_v14 (F := Ideal) (A0 m c) (A1 m c) := by
  show after hostOps1 (W2 m ρ c) (Proc.devRef .tc main_v11) = _
  dsimp only [hostOps1]; after_results_simp
  rw [w2_arg0, w2_v1]
  unfold val_main_v14 val_main_v13 val_main_v12 val_main_v11 val_main_v10 val_main_c_0 val_main_v9 val_main_v8 val_main_c
  rfl
/-- The features at each edge's destination. -/
theorem w3_v18 : W3 m ρ c (Proc.devRef .tc main_v18) = val_main_v21 (F := Ideal) (A0 m c) (A1 m c) := by
  show after hostOps1 (W2 m ρ c) (Proc.devRef .tc main_v18) = _
  dsimp only [hostOps1]; after_results_simp
  rw [w2_arg0, w2_v3]
  unfold val_main_v21 val_main_v20 val_main_v19 val_main_v18 val_main_v17 val_main_c_2 val_main_v16 val_main_v15 val_main_c_1
  rfl
/-- The transform at each edge's source. -/
theorem w3_v25 : W3 m ρ c (Proc.devRef .tc main_v25) = val_main_v43 (F := Ideal) (A0 m c) (A1 m c) (A2 m c) (A3 m c) := by
  show after hostOps1 (W2 m ρ c) (Proc.devRef .tc main_v25) = _
  dsimp only [hostOps1]; after_results_simp
  rw [w2_v4, w2_v1]
  unfold val_main_v43 val_main_v42 val_main_v41 val_main_v40 val_main_v39 val_main_c_8 val_main_v38 val_main_v37 val_main_c_7
  rfl
theorem w3_v3 : W3 m ρ c (Proc.devRef .tc main_v3) = val_main_v3 (F := Ideal) (A1 m c) := by
  refine Eq.trans ?_ (w2_v3 m ρ c)
  show after hostOps1 (W2 m ρ c) (Proc.devRef .tc main_v3) = _
  dsimp only [hostOps1]; after_results_simp
theorem w3_arg1 : W3 m ρ c (Proc.devRef .tc main_arg1) = A1 m c := by
  refine Eq.trans ?_ (w2_arg1 m ρ c)
  show after hostOps1 (W2 m ρ c) (Proc.devRef .tc main_arg1) = _
  dsimp only [hostOps1]; after_results_simp
theorem w3_arg4 : W3 m ρ c (Proc.devRef .tc main_arg4) = A4 m c := by
  refine Eq.trans ?_ (w2_arg4 m ρ c)
  show after hostOps1 (W2 m ρ c) (Proc.devRef .tc main_arg4) = _
  dsimp only [hostOps1]; after_results_simp
theorem w3_arg5 : W3 m ρ c (Proc.devRef .tc main_arg5) = A5 m c := by
  refine Eq.trans ?_ (w2_arg5 m ρ c)
  show after hostOps1 (W2 m ρ c) (Proc.devRef .tc main_arg5) = _
  dsimp only [hostOps1]; after_results_simp

/-! ## Region 1: the first layer's messages -/

theorem w4_v26 : W4 m ρ c (Proc.devRef .tc main_v26) = val_main_v46 (F := Ideal) (A0 m c) (A1 m c) (A2 m c) (A3 m c) := by
  refine (W4_arr m ρ c 3).trans ((Cert.KernelIdeal.KEdge.region1 (V3 m ρ) c).trans ?_)
  show Cert.Spec.edge 1600000 64 (W3 m ρ c (Proc.devRef .tc main_v11)) (W3 m ρ c (Proc.devRef .tc main_v18)) (W3 m ρ c (Proc.devRef .tc main_v25)) = _
  rw [w3_v11, w3_v18, w3_v25]
  exact (Cert.ReferenceIdeal.RefStages.edge1 _ _ _ _).symm
theorem w4_v3 : W4 m ρ c (Proc.devRef .tc main_v3) = val_main_v3 (F := Ideal) (A1 m c) :=
  (W4_of_ne m ρ c main_v3 (by decide)).trans (w3_v3 m ρ c)
theorem w4_arg1 : W4 m ρ c (Proc.devRef .tc main_arg1) = A1 m c :=
  (W4_of_ne m ρ c main_arg1 (by decide)).trans (w3_arg1 m ρ c)
theorem w4_arg4 : W4 m ρ c (Proc.devRef .tc main_arg4) = A4 m c :=
  (W4_of_ne m ρ c main_arg4 (by decide)).trans (w3_arg4 m ρ c)
theorem w4_arg5 : W4 m ρ c (Proc.devRef .tc main_arg5) = A5 m c :=
  (W4_of_ne m ρ c main_arg5 (by decide)).trans (w3_arg5 m ρ c)

/-! ## Stretches 2 to 6: scatter-add by destination, the degree clipped at 1, the quotient, the rectifier; the edge list sliced again -/

/-- The messages added up by destination. -/
theorem w5_v29 : W5 m ρ c (Proc.devRef .tc main_v29) = val_main_v49 (F := Ideal) (A0 m c) (A1 m c) (A2 m c) (A3 m c) := by
  show after hostOps2 (W4 m ρ c) (Proc.devRef .tc main_v29) = _
  dsimp only [hostOps2]; after_results_simp
  rw [w4_v3, w4_v26]
  unfold val_main_v49 val_main_v48 val_main_v47 val_main_cst_9
  rfl
/-- The in-degrees: ones added up by destination. -/
theorem w5_v33 : W5 m ρ c (Proc.devRef .tc main_v33) = val_main_v53 (F := Ideal) (A1 m c) := by
  show after hostOps2 (W4 m ρ c) (Proc.devRef .tc main_v33) = _
  dsimp only [hostOps2]; after_results_simp
  rw [w4_v3]
  unfold val_main_v53 val_main_v52 val_main_v51 val_main_cst_11 val_main_v50 val_main_cst_10
  rfl
theorem w5_cst7 : W5 m ρ c (Proc.devRef .tc main_cst_7) = val_main_cst_12 (F := Ideal) := by
  show after hostOps2 (W4 m ρ c) (Proc.devRef .tc main_cst_7) = _
  dsimp only [hostOps2]; after_results_simp
  unfold val_main_cst_12
  rfl
/-- The degree clipped below at 1. -/
theorem w6_v34 : W6 m ρ c (Proc.devRef .tc main_v34) = val_main_v54 (F := Ideal) (A1 m c) := by
  have e : ∀ (V : Valuation τ sig (Elt Ideal)), (after hostOps2_1 V (Proc.devRef .tc main_v34) : (⟨S100000, .f32⟩ : BufTy).Contents (Elt Ideal))
      = maximumf (F := Ideal) (φ := .f32) (broadcastInDim S100000 ![] bcast_S_S100000 (id (V (Proc.devRef .tc main_cst_7) : (⟨S_, .f32⟩ : BufTy).Contents (Elt Ideal))))
          (V (Proc.devRef .tc main_v33) : (⟨S100000, .f32⟩ : BufTy).Contents (Elt Ideal)) := by
    intro V; dsimp only [hostOps2_1, TRef.unary, TRef.binary, TRef.nullary]; after_results_simp; rfl
  refine (e (W5 m ρ c)).trans ?_
  rw [w5_cst7, w5_v33]
  unfold val_main_v54 val_main_call1_v1 val_main_call1_v0
  rfl
theorem w6_v29 : W6 m ρ c (Proc.devRef .tc main_v29) = val_main_v49 (F := Ideal) (A0 m c) (A1 m c) (A2 m c) (A3 m c) := by
  have e : ∀ (V : Valuation τ sig (Elt Ideal)), after hostOps2_1 V (Proc.devRef .tc main_v29) = V (Proc.devRef .tc main_v29) := by
    intro V; dsimp only [hostOps2_1, TRef.unary, TRef.binary, TRef.nullary]; after_results_simp
  exact (e (W5 m ρ c)).trans (w5_v29 m ρ c)
/-- The sums divided by the clipped degree, row by row. -/
theorem w7_v37 : W7 m ρ c (Proc.devRef .tc main_v37) = val_main_v57 (F := Ideal) (A0 m c) (A1 m c) (A2 m c) (A3 m c) := by
  have e : ∀ (V : Valuation τ sig (Elt Ideal)), (after hostOps2_2 V (Proc.devRef .tc main_v37) : (⟨S100000x64, .f32⟩ : BufTy).Contents (Elt Ideal))
      = Host.divf (F := Ideal) (φ := .f32) (V (Proc.devRef .tc main_v29) : (⟨S100000x64, .f32⟩ : BufTy).Contents (Elt Ideal)) (broadcastInDim S100000x64 ![0, 1] bcast_S100000x1_S100000x64_0_1
          (broadcastInDim S100000x1 ![0] bcast_S100000_S100000x1_0 (V (Proc.devRef .tc main_v34) : (⟨S100000, .f32⟩ : BufTy).Contents (Elt Ideal)))) := by
    intro V; dsimp only [hostOps2_2]; after_results_simp
  refine (e (W6 m ρ c)).trans ?_
  rw [w6_v34, w6_v29]
  unfold val_main_v57 val_main_v56 val_main_v55
  rfl
/-- The rectifier. -/
theorem w8_v38 : W8 m ρ c (Proc.devRef .tc main_v38) = val_main_v58 (F := Ideal) (A0 m c) (A1 m c) (A2 m c) (A3 m c) := by
  have e : ∀ (V : Valuation τ sig (Elt Ideal)), after hostOps2_3 V (Proc.devRef .tc main_v38)
      = maximumf (V (Proc.devRef .tc main_v37)) (broadcastInDim S100000x64 ![] bcast_S_S100000x64 (constant (F := Ideal) S_ .f32 0x00000000#32)) := by
    intro V; dsimp only [hostOps2_3, TRef.unary, TRef.binary, TRef.nullary]; after_results_simp; rfl
  refine (e (W7 m ρ c)).trans ?_
  rw [w7_v37]
  unfold val_main_v58 val_main_call2_v0 val_main_call2_cst
  rfl
/-- The first layer's output after the rectifier: the second layer's features. -/
theorem w9_v38 : W9 m ρ c (Proc.devRef .tc main_v38) = val_main_v58 (F := Ideal) (A0 m c) (A1 m c) (A2 m c) (A3 m c) := by
  have e : ∀ (V : Valuation τ sig (Elt Ideal)), after hostOps2_4 V (Proc.devRef .tc main_v38) = V (Proc.devRef .tc main_v38) := by
    intro V; dsimp only [hostOps2_4]; after_results_simp
  exact (e (W8 m ρ c)).trans (w8_v38 m ρ c)
theorem w9_v40 : W9 m ρ c (Proc.devRef .tc main_v40) = val_main_v60 (F := Ideal) (A1 m c) := by
  show after hostOps2_4 (after hostOps2_3 (after hostOps2_2 (after hostOps2_1 (after hostOps2 (W4 m ρ c))))) (Proc.devRef .tc main_v40) = _
  dsimp only [hostOps2_4, hostOps2_3, hostOps2_2, hostOps2_1, hostOps2, TRef.unary, TRef.binary, TRef.nullary]; after_results_simp
  rw [w4_arg1]
  unfold val_main_v60 val_main_v59; rfl
theorem w9_v42 : W9 m ρ c (Proc.devRef .tc main_v42) = val_main_v62 (F := Ideal) (A1 m c) := by
  show after hostOps2_4 (after hostOps2_3 (after hostOps2_2 (after hostOps2_1 (after hostOps2 (W4 m ρ c))))) (Proc.devRef .tc main_v42) = _
  dsimp only [hostOps2_4, hostOps2_3, hostOps2_2, hostOps2_1, hostOps2, TRef.unary, TRef.binary, TRef.nullary]; after_results_simp
  rw [w4_arg1]
  unfold val_main_v62 val_main_v61; rfl
theorem w9_arg4 : W9 m ρ c (Proc.devRef .tc main_arg4) = A4 m c := by
  refine Eq.trans ?_ (w4_arg4 m ρ c)
  show after hostOps2_4 (after hostOps2_3 (after hostOps2_2 (after hostOps2_1 (after hostOps2 (W4 m ρ c))))) (Proc.devRef .tc main_arg4) = _
  dsimp only [hostOps2_4, hostOps2_3, hostOps2_2, hostOps2_1, hostOps2, TRef.unary, TRef.binary, TRef.nullary]; after_results_simp
theorem w9_arg5 : W9 m ρ c (Proc.devRef .tc main_arg5) = A5 m c := by
  refine Eq.trans ?_ (w4_arg5 m ρ c)
  show after hostOps2_4 (after hostOps2_3 (after hostOps2_2 (after hostOps2_1 (after hostOps2 (W4 m ρ c))))) (Proc.devRef .tc main_arg5) = _
  dsimp only [hostOps2_4, hostOps2_3, hostOps2_2, hostOps2_1, hostOps2, TRef.unary, TRef.binary, TRef.nullary]; after_results_simp

/-! ## Region 2: the second dense transform -/

theorem w10_v43 : W10 m ρ c (Proc.devRef .tc main_v43)
    = val_main_v66 (F := Ideal) (A0 m c) (A1 m c) (A2 m c) (A3 m c) (A4 m c) (A5 m c) := by
  refine (W10_arr m ρ c 3).trans ((Cert.KernelIdeal.KLin.region2 (V9 m ρ) c).trans ?_)
  show Cert.Spec.lin 100000 32 (W9 m ρ c (Proc.devRef .tc main_v38)) (W9 m ρ c (Proc.devRef .tc main_arg4)) (W9 m ρ c (Proc.devRef .tc main_arg5)) = _
  rw [w9_v38, w9_arg4, w9_arg5]
  exact (Cert.ReferenceIdeal.RefStages.lin2 _ _ _ _ _ _).symm
theorem w10_v38 : W10 m ρ c (Proc.devRef .tc main_v38) = val_main_v58 (F := Ideal) (A0 m c) (A1 m c) (A2 m c) (A3 m c) :=
  ((W10_arr m ρ c 0).trans (((dat2 (V9 m ρ) c).arrAt_in 0 rfl _).trans (A_eq2 (V9 m ρ) c 0))).trans (w9_v38 m ρ c)
theorem w10_v40 : W10 m ρ c (Proc.devRef .tc main_v40) = val_main_v60 (F := Ideal) (A1 m c) :=
  (W10_of_ne m ρ c main_v40 (by decide)).trans (w9_v40 m ρ c)
theorem w10_v42 : W10 m ρ c (Proc.devRef .tc main_v42) = val_main_v62 (F := Ideal) (A1 m c) :=
  (W10_of_ne m ρ c main_v42 (by decide)).trans (w9_v42 m ρ c)

/-! ## Stretch 7: the second layer's three gathers -/

theorem w11_v50 : W11 m ρ c (Proc.devRef .tc main_v50) = val_main_v73 (F := Ideal) (A0 m c) (A1 m c) (A2 m c) (A3 m c) := by
  show after hostOps3 (W10 m ρ c) (Proc.devRef .tc main_v50) = _
  dsimp only [hostOps3]; after_results_simp
  rw [w10_v38, w10_v40]
  unfold val_main_v73 val_main_v72 val_main_v71 val_main_v70 val_main_v69 val_main_c_14 val_main_v68 val_main_v67 val_main_c_13
  rfl
theorem w11_v57 : W11 m ρ c (Proc.devRef .tc main_v57) = val_main_v80 (F := Ideal) (A0 m c) (A1 m c) (A2 m c) (A3 m c) := by
  show after hostOps3 (W10 m ρ c) (Proc.devRef .tc main_v57) = _
  dsimp only [hostOps3]; after_results_simp
  rw [w10_v38, w10_v42]
  unfold val_main_v80 val_main_v79 val_main_v78 val_main_v77 val_main_v76 val_main_c_16 val_main_v75 val_main_v74 val_main_c_15
  rfl
theorem w11_v64 : W11 m ρ c (Proc.devRef .tc main_v64)
    = val_main_v102 (F := Ideal) (A0 m c) (A1 m c) (A2 m c) (A3 m c) (A4 m c) (A5 m c) := by
  show after hostOps3 (W10 m ρ c) (Proc.devRef .tc main_v64) = _
  dsimp only [hostOps3]; after_results_simp
  rw [w10_v43, w10_v40]
  unfold val_main_v102 val_main_v101 val_main_v100 val_main_v99 val_main_v98 val_main_c_23 val_main_v97 val_main_v96 val_main_c_22
  rfl
theorem w11_v42 : W11 m ρ c (Proc.devRef .tc main_v42) = val_main_v62 (F := Ideal) (A1 m c) := by
  refine Eq.trans ?_ (w10_v42 m ρ c)
  show after hostOps3 (W10 m ρ c) (Proc.devRef .tc main_v42) = _
  dsimp only [hostOps3]; after_results_simp

/-! ## Region 3: the second layer's messages -/

theorem w12_v65 : W12 m ρ c (Proc.devRef .tc main_v65)
    = val_main_v105 (F := Ideal) (A0 m c) (A1 m c) (A2 m c) (A3 m c) (A4 m c) (A5 m c) := by
  refine (W12_arr m ρ c 3).trans ((Cert.KernelIdeal.KEdge.region3 (V11 m ρ) c).trans ?_)
  show Cert.Spec.edge 1600000 32 (W11 m ρ c (Proc.devRef .tc main_v50)) (W11 m ρ c (Proc.devRef .tc main_v57)) (W11 m ρ c (Proc.devRef .tc main_v64)) = _
  rw [w11_v50, w11_v57, w11_v64]
  exact (Cert.ReferenceIdeal.RefStages.edge2 _ _ _ _ _ _).symm
theorem w12_v42 : W12 m ρ c (Proc.devRef .tc main_v42) = val_main_v62 (F := Ideal) (A1 m c) :=
  (W12_of_ne m ρ c main_v42 (by decide)).trans (w11_v42 m ρ c)

/-! ## Stretches 8 to 10: scatter-add by destination, the degree clipped at 1, the quotient -/

theorem w13_v68 : W13 m ρ c (Proc.devRef .tc main_v68)
    = val_main_v108 (F := Ideal) (A0 m c) (A1 m c) (A2 m c) (A3 m c) (A4 m c) (A5 m c) := by
  show after hostOps4 (W12 m ρ c) (Proc.devRef .tc main_v68) = _
  dsimp only [hostOps4]; after_results_simp
  rw [w12_v42, w12_v65]
  unfold val_main_v108 val_main_v107 val_main_v106 val_main_cst_24
  rfl
theorem w13_v72 : W13 m ρ c (Proc.devRef .tc main_v72) = val_main_v112 (F := Ideal) (A1 m c) := by
  show after hostOps4 (W12 m ρ c) (Proc.devRef .tc main_v72) = _
  dsimp only [hostOps4]; after_results_simp
  rw [w12_v42]
  unfold val_main_v112 val_main_v111 val_main_v110 val_main_cst_26 val_main_v109 val_main_cst_25
  rfl
theorem w13_cst17 : W13 m ρ c (Proc.devRef .tc main_cst_17) = val_main_cst_27 (F := Ideal) := by
  show after hostOps4 (W12 m ρ c) (Proc.devRef .tc main_cst_17) = _
  dsimp only [hostOps4]; after_results_simp
  unfold val_main_cst_27
  rfl
theorem w14_v73 : W14 m ρ c (Proc.devRef .tc main_v73) = val_main_v113 (F := Ideal) (A1 m c) := by
  have e : ∀ (V : Valuation τ sig (Elt Ideal)), (after hostOps4_1 V (Proc.devRef .tc main_v73) : (⟨S100000, .f32⟩ : BufTy).Contents (Elt Ideal))
      = maximumf (F := Ideal) (φ := .f32) (broadcastInDim S100000 ![] bcast_S_S100000 (id (V (Proc.devRef .tc main_cst_17) : (⟨S_, .f32⟩ : BufTy).Contents (Elt Ideal))))
          (V (Proc.devRef .tc main_v72) : (⟨S100000, .f32⟩ : BufTy).Contents (Elt Ideal)) := by
    intro V; dsimp only [hostOps4_1, TRef.unary, TRef.binary, TRef.nullary]; after_results_simp; rfl
  refine (e (W13 m ρ c)).trans ?_
  rw [w13_cst17, w13_v72]
  unfold val_main_v113 val_main_call4_v1 val_main_call4_v0
  rfl
theorem w14_v68 : W14 m ρ c (Proc.devRef .tc main_v68)
    = val_main_v108 (F := Ideal) (A0 m c) (A1 m c) (A2 m c) (A3 m c) (A4 m c) (A5 m c) := by
  have e : ∀ (V : Valuation τ sig (Elt Ideal)), after hostOps4_1 V (Proc.devRef .tc main_v68) = V (Proc.devRef .tc main_v68) := by
    intro V; dsimp only [hostOps4_1, TRef.unary, TRef.binary, TRef.nullary]; after_results_simp
  exact (e (W13 m ρ c)).trans (w13_v68 m ρ c)
/-- THE RESULT: the kernel program's result buffer at its last boundary is the reference's last stage of the six arguments. -/
theorem result : W15 m ρ c (Proc.devRef .tc main_v76)
    = val_main_v116 (F := Ideal) (A0 m c) (A1 m c) (A2 m c) (A3 m c) (A4 m c) (A5 m c) := by
  have e : ∀ (V : Valuation τ sig (Elt Ideal)), (after hostOps4_2 V (Proc.devRef .tc main_v76) : (⟨S100000x32, .f32⟩ : BufTy).Contents (Elt Ideal))
      = Host.divf (F := Ideal) (φ := .f32) (V (Proc.devRef .tc main_v68) : (⟨S100000x32, .f32⟩ : BufTy).Contents (Elt Ideal)) (broadcastInDim S100000x32 ![0, 1] bcast_S100000x1_S100000x32_0_1
          (broadcastInDim S100000x1 ![0] bcast_S100000_S100000x1_0 (V (Proc.devRef .tc main_v73) : (⟨S100000, .f32⟩ : BufTy).Contents (Elt Ideal)))) := by
    intro V; dsimp only [hostOps4_2]; after_results_simp
  refine (e (W14 m ρ c)).trans ?_
  rw [w14_v73, w14_v68]
  unfold val_main_v116 val_main_v115 val_main_v114
  rfl
end Cert.KernelIdeal.KChain

end
-- ==== Proof.lean ====
/-
  The certificate of a two-layer message-passing network on 100000 nodes and 1600000 edges.

  Each layer transforms the node features densely, gathers features and transform along the edges, scales the gathered
  transform of every edge by a weight `√(1 - (tanh ‖x_src - x_dst‖ · c)² + ε)` of the distance of its endpoints, adds the
  messages up by destination and divides by the degree clipped at 1. The kernel program computes the dense transform and
  the messages in four tiled regions (rows of 2000) and everything else on the host; the reference computes everything
  on the host and spells the weight as a double reciprocal.

  * The three frames: the two kernel programs' are generated whole; the reference's is its generated run.
  * `preserves`: the idealization rewrote nothing.
  * `algebraic`: the kernel program's result buffer, followed through its segments (`KRun.run_value`, `KChain.result`), is
    the reference's last stage of the six arguments; the reference's run ends at that stage (`val_main_v116_eq`). The
    only arithmetic fact used is that the weight is a positive real whatever the inputs (`Spec.div_div_wgt`), so the
    finiteness precondition is never opened.
-/
import proofs.«108561_j16149077033547_1_alg».proof.Defs
import proofs.«108561_j16149077033547_1_alg».proof.Proof.Gen.Kernel
import proofs.«108561_j16149077033547_1_alg».proof.Proof.Gen.Kernel.Skeleton
import proofs.«108561_j16149077033547_1_alg».proof.Proof.Gen.Kernel.Launch
import proofs.«108561_j16149077033547_1_alg».proof.Proof.Gen.Kernel.Points
import proofs.«108561_j16149077033547_1_alg».proof.Proof.Gen.Kernel.Frame
import proofs.«108561_j16149077033547_1_alg».proof.Proof.Gen.KernelIdeal
import proofs.«108561_j16149077033547_1_alg».proof.Proof.Gen.KernelIdeal.Skeleton
import proofs.«108561_j16149077033547_1_alg».proof.Proof.Gen.KernelIdeal.Launch
import proofs.«108561_j16149077033547_1_alg».proof.Proof.Gen.KernelIdeal.Points
import proofs.«108561_j16149077033547_1_alg».proof.Proof.Gen.KernelIdeal.Frame
import proofs.«108561_j16149077033547_1_alg».proof.Proof.Gen.ReferenceIdeal
import proofs.«108561_j16149077033547_1_alg».proof.Proof.Gen.ReferenceIdeal.Run
import proofs.«108561_j16149077033547_1_alg».proof.Proof.Gen.ReferenceIdeal.Read
import proofs.«108561_j16149077033547_1_alg».proof.Proof.Gen.Pre_finite_inputs
import proofs.«108561_j16149077033547_1_alg».proof.Proof.KRun
import proofs.«108561_j16149077033547_1_alg».proof.Proof.KChain
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : @Cert.frame_Kernel Cert.Kernel.Gen.facts Cert.Pre_finite_inputs.Gen.facts :=
  fun m ρ _ => Cert.Kernel.Gen.frame m ρ

/-- The idealized kernel program runs and keeps its arguments. -/
theorem frame_ki : @Cert.frame_KernelIdeal Cert.KernelIdeal.Gen.facts Cert.Pre_finite_inputs.Gen.facts :=
  fun m ρ _ => Cert.KernelIdeal.Gen.frame m ρ

/-- The reference runs and keeps its arguments: its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From memories agreeing on the six arguments both programs end with the reference's last stage of those arguments in
    their result buffers. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.ReferenceIdeal.Read.val_main_v116 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.KChain.result m ρ c), (h c).2⟩)
      (Cert.KernelIdeal.KRun.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v116_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
